-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128x10 .f32) (main_arg8 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg7
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg8
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : IVec S1600000 32) (main_arg1 : IVec S1600000 32) (main_arg2 : IVec S100000 32) (main_arg3 : FVec F S1x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_v13 main_v16
-- ==== Kernel.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x1 : Shape := ⟨2, ![5000, 1]⟩
abbrev S5000x128 : Shape := ⟨2, ![5000, 128]⟩
abbrev S1600000x128 : Shape := ⟨2, ![1600000, 128]⟩
abbrev S128x1 : Shape := ⟨2, ![128, 1]⟩
abbrev S1x10 : Shape := ⟨2, ![1, 10]⟩

abbrev nBuf : Space → Nat
  | .hbm => 86
  | .vmem => 22
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x1, .f32⟩
  | .hbm, ⟨45, _⟩ => ⟨S_, .f32⟩
  | .hbm, ⟨46, _⟩ => ⟨S100000x1, .f32⟩
  | .hbm, ⟨47, _⟩ => ⟨S1600000x1, .i32⟩
  | .hbm, ⟨48, _⟩ => ⟨S100000x1, .f32⟩
  | .hbm, ⟨49, _⟩ => ⟨S100000x1, .f32⟩
  | .hbm, ⟨50, _⟩ => ⟨S1x128, .f32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S1x128, .f32⟩
  | .hbm, ⟨70, _⟩ => ⟨S100000x128, .f32⟩
  | .hbm, ⟨71, _⟩ => ⟨S100000x1, .i32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S_, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128x1, .f32⟩
  | .hbm, ⟨80, _⟩ => ⟨S128x128, .f32⟩
  | .hbm, ⟨81, _⟩ => ⟨S128x128, .f32⟩
  | .hbm, ⟨82, _⟩ => ⟨S128x10, .f32⟩
  | .hbm, ⟨83, _⟩ => ⟨S1x10, .f32⟩
  | .hbm, ⟨84, _⟩ => ⟨S128x10, .f32⟩
  | .hbm, ⟨85, _⟩ => ⟨S128x10, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .i32⟩
  | .local _ .vmem, ⟨19, _⟩ => ⟨S5000x1, .i32⟩
  | .local _ .vmem, ⟨20, _⟩ => ⟨S128x128, .f32⟩
  | .local _ .vmem, ⟨21, _⟩ => ⟨S1x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_v47 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  broadcasts_S5000x1_S5000x128 : S5000x1.Broadcasts S5000x128
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  iota_S5000x128_d1_w32 : S5000x128.Iotas .tc 32 [1]
  natLt_1_32 : 1 < 32
  reduces_S5000x128_S128 : S5000x128.Reduces [0] S128
  shapeCasts_S128x128_S128x128 : S128x128.ShapeCasts S128x128
  shapeCasts_S1x128_S128 : S1x128.ShapeCasts S128
  bcast_S_S128 : S_.BroadcastsInDim S128 (![] : Fin 0 → Fin S128.rank)
  shapeCasts_S128_S128x1 : S128.ShapeCasts S128x1
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S5000x1_S1x128_S5000x128_1_0_0_1_n_n_wf : DotDims.WF S5000x1 S1x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v25) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46_0) S128x128.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46_1) S1x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S128x1 : Shape := ⟨2, ![128, 1]⟩
abbrev S1x10 : Shape := ⟨2, ![1, 10]⟩

abbrev nBuf : Space → Nat
  | .hbm => 106
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x1, .f32⟩
  | .hbm, ⟨35, _⟩ => ⟨S100000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x1, .f32⟩
  | .hbm, ⟨45, _⟩ => ⟨S_, .f32⟩
  | .hbm, ⟨46, _⟩ => ⟨S100000x1, .f32⟩
  | .hbm, ⟨47, _⟩ => ⟨S1600000x1, .i32⟩
  | .hbm, ⟨48, _⟩ => ⟨S100000x1, .f32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S128x128, .f32⟩
  | .hbm, ⟨87, _⟩ => ⟨S100000x1, .i32⟩
  | .hbm, ⟨88, _⟩ => ⟨S128x128, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S128, .f32⟩
  | .hbm, ⟨93, _⟩ => ⟨S100000x1, .i32⟩
  | .hbm, ⟨94, _⟩ => ⟨S128, .f32⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128x1, .f32⟩
  | .hbm, ⟨100, _⟩ => ⟨S128x128, .f32⟩
  | .hbm, ⟨101, _⟩ => ⟨S128x128, .f32⟩
  | .hbm, ⟨102, _⟩ => ⟨S128x10, .f32⟩
  | .hbm, ⟨103, _⟩ => ⟨S1x10, .f32⟩
  | .hbm, ⟨104, _⟩ => ⟨S128x10, .f32⟩
  | .hbm, ⟨105, _⟩ => ⟨S128x10, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_call4_v0 : Ref sig .tc := ⟨.hbm, 96, rfl⟩
abbrev main_call4_v1 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x10_S128x10_1_0_0_1_n_n_wf : DotDims.WF S128x128 S128x10 S128x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.HostChainA.lean ====
/-
  What the idealized kernel program's result array holds after @main, as the reference's own stage functions of the
  argument arrays: walking @main's host stretches and regions from the launch. Each host stretch applies the same
  operations the reference applies; each convolution region leaves the finish of its entry arrays, which is the
  reference's dot_general / scale / bias / relu chain; the pooling region leaves the per-graph sums and counts, which
  are the reference's segment sums.
-/
import proofs.«416134_j13417477832960_1_alg».proof.Proof.Gen.KernelIdeal.Frame
import proofs.«416134_j13417477832960_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-- Argument `k`'s launch contents on core `c`. -/
abbrev a0 (c : Dev nD) : (⟨S1600000, .i32⟩ : BufTy).Contents (Elt Ideal) := m ((c : Thread nD τ).loc main_arg0)
abbrev a1 (c : Dev nD) : (⟨S1600000, .i32⟩ : BufTy).Contents (Elt Ideal) := m ((c : Thread nD τ).loc main_arg1)
abbrev a2 (c : Dev nD) : (⟨S100000, .i32⟩ : BufTy).Contents (Elt Ideal) := m ((c : Thread nD τ).loc main_arg2)
abbrev a3 (c : Dev nD) : (⟨S1x128, .f32⟩ : BufTy).Contents (Elt Ideal) := m ((c : Thread nD τ).loc main_arg3)
abbrev a4 (c : Dev nD) : (⟨S128, .f32⟩ : BufTy).Contents (Elt Ideal) := m ((c : Thread nD τ).loc main_arg4)
abbrev a5 (c : Dev nD) : (⟨S128x128, .f32⟩ : BufTy).Contents (Elt Ideal) := m ((c : Thread nD τ).loc main_arg5)
abbrev a6 (c : Dev nD) : (⟨S128, .f32⟩ : BufTy).Contents (Elt Ideal) := m ((c : Thread nD τ).loc main_arg6)
abbrev a7 (c : Dev nD) : (⟨S128x10, .f32⟩ : BufTy).Contents (Elt Ideal) := m ((c : Thread nD τ).loc main_arg7)
abbrev a8 (c : Dev nD) : (⟨S10, .f32⟩ : BufTy).Contents (Elt Ideal) := m ((c : Thread nD τ).loc main_arg8)

/-! ## The host prefix: degrees, norms, the first aggregation

Each buffer the later stretches read, after each stretch, as the reference's stage of the arguments. A stretch made of a
called function's operations (the clips) is read from the stretch before it, one operation deep. -/

set_option maxHeartbeats 4000000 in
theorem at1_v3 (c : Dev nD) : W1 m ρ c (Proc.devRef .tc main_v3) = Cert.ReferenceIdeal.Read.val_main_v3 (F := Ideal) (a1 m c) := by
  show StableHlo.after hostOps0 (W0 m ρ c) (Proc.devRef .tc main_v3) = _
  after_results_simp <;> rfl

set_option maxHeartbeats 4000000 in
theorem at1_v6 (c : Dev nD) : W1 m ρ c (Proc.devRef .tc main_v6) = Cert.ReferenceIdeal.Read.val_main_v6 (F := Ideal) (a0 m c) := by
  show StableHlo.after hostOps0 (W0 m ρ c) (Proc.devRef .tc main_v6) = _
  after_results_simp <;> rfl

set_option maxHeartbeats 4000000 in
theorem at1_cst_2 (c : Dev nD) : W1 m ρ c (Proc.devRef .tc main_cst_2) = Cert.ReferenceIdeal.Read.val_main_cst_2 (F := Ideal) := by
  show StableHlo.after hostOps0 (W0 m ρ c) (Proc.devRef .tc main_cst_2) = _
  after_results_simp <;> rfl

set_option maxHeartbeats 4000000 in
theorem at2_v7 (c : Dev nD) : W2 m ρ c (Proc.devRef .tc main_v7) = Cert.ReferenceIdeal.Read.val_main_v7 (F := Ideal) (a0 m c) := by
  have h0 := at1_cst_2 m ρ c
  have h1 := at1_v6 m ρ c
  show StableHlo.after hostOps0_1 (W1 m ρ c) (Proc.devRef .tc main_v7) = _
  generalize W1 m ρ c = V at h0 h1 ⊢
  after_results_simp
  refine Eq.trans (b := maximumf (F := Ideal) (s := S100000) (φ := .f32) (broadcastInDim S100000 ![] bcast_S_S100000 (id (V (Proc.devRef .tc main_cst_2)))) (V (Proc.devRef .tc main_v6))) rfl ?_
  rw [h0, h1]
  rfl

set_option maxHeartbeats 4000000 in
theorem at2_v3 (c : Dev nD) : W2 m ρ c (Proc.devRef .tc main_v3) = Cert.ReferenceIdeal.Read.val_main_v3 (F := Ideal) (a1 m c) := by
  show StableHlo.after hostOps0_1 (StableHlo.after hostOps0 (W0 m ρ c)) (Proc.devRef .tc main_v3) = _
  after_results_simp <;> rfl

set_option maxHeartbeats 4000000 in
theorem at3_v9 (c : Dev nD) : W3 m ρ c (Proc.devRef .tc main_v9) = Cert.ReferenceIdeal.Read.val_main_v9 (F := Ideal) (a0 m c) := by
  have h0 := at2_v7 m ρ c
  show StableHlo.after hostOps0_2 (W2 m ρ c) (Proc.devRef .tc main_v9) = _
  generalize W2 m ρ c = V at h0 ⊢
  after_results_simp
  rw [h0]
  rfl

set_option maxHeartbeats 4000000 in
theorem at3_v3 (c : Dev nD) : W3 m ρ c (Proc.devRef .tc main_v3) = Cert.ReferenceIdeal.Read.val_main_v3 (F := Ideal) (a1 m c) := by
  show StableHlo.after hostOps0_2 (StableHlo.after hostOps0_1 (StableHlo.after hostOps0 (W0 m ρ c))) (Proc.devRef .tc main_v3) = _
  after_results_simp <;> rfl

set_option maxHeartbeats 4000000 in
theorem at3_cst_4 (c : Dev nD) : W3 m ρ c (Proc.devRef .tc main_cst_4) = Cert.ReferenceIdeal.Read.val_main_cst_4 (F := Ideal) := by
  show StableHlo.after hostOps0_2 (StableHlo.after hostOps0_1 (StableHlo.after hostOps0 (W0 m ρ c))) (Proc.devRef .tc main_cst_4) = _
  after_results_simp <;> rfl

set_option maxHeartbeats 4000000 in
theorem at4_v10 (c : Dev nD) : W4 m ρ c (Proc.devRef .tc main_v10) = Cert.ReferenceIdeal.Read.val_main_v10 (F := Ideal) (a1 m c) := by
  have h0 := at3_cst_4 m ρ c
  have h1 := at3_v3 m ρ c
  show StableHlo.after hostOps0_3 (W3 m ρ c) (Proc.devRef .tc main_v10) = _
  generalize W3 m ρ c = V at h0 h1 ⊢
  after_results_simp
  refine Eq.trans (b := maximumf (F := Ideal) (s := S100000) (φ := .f32) (broadcastInDim S100000 ![] bcast_S_S100000 (id (V (Proc.devRef .tc main_cst_4)))) (V (Proc.devRef .tc main_v3))) rfl ?_
  rw [h0, h1]
  rfl

set_option maxHeartbeats 4000000 in
theorem at4_v9 (c : Dev nD) : W4 m ρ c (Proc.devRef .tc main_v9) = Cert.ReferenceIdeal.Read.val_main_v9 (F := Ideal) (a0 m c) := by
  have h0 := at3_v9 m ρ c
  show StableHlo.after hostOps0_3 (W3 m ρ c) (Proc.devRef .tc main_v9) = _
  generalize W3 m ρ c = V at h0 ⊢
  after_results_simp
  exact h0

set_option maxHeartbeats 4000000 in
theorem at4_v3 (c : Dev nD) : W4 m ρ c (Proc.devRef .tc main_v3) = Cert.ReferenceIdeal.Read.val_main_v3 (F := Ideal) (a1 m c) := by
  show StableHlo.after hostOps0_3 (StableHlo.after hostOps0_2 (StableHlo.after hostOps0_1 (StableHlo.after hostOps0 (W0 m ρ c)))) (Proc.devRef .tc main_v3) = _
  after_results_simp <;> rfl

set_option maxHeartbeats 4000000 in
theorem at4_arg0 (c : Dev nD) : W4 m ρ c (Proc.devRef .tc main_arg0) = a0 m c := by
  show StableHlo.after hostOps0_3 (StableHlo.after hostOps0_2 (StableHlo.after hostOps0_1 (StableHlo.after hostOps0 (W0 m ρ c)))) (Proc.devRef .tc main_arg0) = _
  after_results_simp <;> rfl

set_option maxHeartbeats 4000000 in
theorem at4_arg1 (c : Dev nD) : W4 m ρ c (Proc.devRef .tc main_arg1) = a1 m c := by
  show StableHlo.after hostOps0_3 (StableHlo.after hostOps0_2 (StableHlo.after hostOps0_1 (StableHlo.after hostOps0 (W0 m ρ c)))) (Proc.devRef .tc main_arg1) = _
  after_results_simp <;> rfl

set_option maxHeartbeats 4000000 in
theorem at4_arg4 (c : Dev nD) : W4 m ρ c (Proc.devRef .tc main_arg4) = a4 m c := by
  show StableHlo.after hostOps0_3 (StableHlo.after hostOps0_2 (StableHlo.after hostOps0_1 (StableHlo.after hostOps0 (W0 m ρ c)))) (Proc.devRef .tc main_arg4) = _
  after_results_simp <;> rfl

set_option maxHeartbeats 4000000 in
theorem at5_v12 (c : Dev nD) : W5 m ρ c (Proc.devRef .tc main_v12) = Cert.ReferenceIdeal.Read.val_main_v12 (F := Ideal) (a1 m c) := by
  have h0 := at4_v10 m ρ c
  show StableHlo.after hostOps0_4 (W4 m ρ c) (Proc.devRef .tc main_v12) = _
  generalize W4 m ρ c = V at h0 ⊢
  after_results_simp
  rw [h0]
  rfl

set_option maxHeartbeats 4000000 in
theorem at5_v9 (c : Dev nD) : W5 m ρ c (Proc.devRef .tc main_v9) = Cert.ReferenceIdeal.Read.val_main_v9 (F := Ideal) (a0 m c) := by
  have h0 := at4_v9 m ρ c
  show StableHlo.after hostOps0_4 (W4 m ρ c) (Proc.devRef .tc main_v9) = _
  generalize W4 m ρ c = V at h0 ⊢
  after_results_simp
  exact h0

set_option maxHeartbeats 4000000 in
theorem at5_v25 (c : Dev nD) : W5 m ρ c (Proc.devRef .tc main_v25) = Cert.ReferenceIdeal.Read.val_main_v25 (F := Ideal) (a0 m c) (a1 m c) := by
  have h0 := at4_v3 m ρ c
  have h1 := at4_v9 m ρ c
  have h2 := at4_arg0 m ρ c
  have h3 := at4_arg1 m ρ c
  show StableHlo.after hostOps0_4 (W4 m ρ c) (Proc.devRef .tc main_v25) = _
  generalize W4 m ρ c = V at h0 h1 h2 h3 ⊢
  after_results_simp
  rw [h0, h1, h2, h3]
  rfl

set_option maxHeartbeats 4000000 in
theorem at5_v26 (c : Dev nD) : W5 m ρ c (Proc.devRef .tc main_v26) = shapeCast S100000x1 (Cert.ReferenceIdeal.Read.val_main_v12 (F := Ideal) (a1 m c)) shapeCasts_S100000_S100000x1 := by
  have h0 := at4_v10 m ρ c
  show StableHlo.after hostOps0_4 (W4 m ρ c) (Proc.devRef .tc main_v26) = _
  generalize W4 m ρ c = V at h0 ⊢
  after_results_simp
  rw [h0]
  rfl

set_option maxHeartbeats 4000000 in
theorem at5_v27 (c : Dev nD) : W5 m ρ c (Proc.devRef .tc main_v27) = shapeCast S1x128 (a4 m c) shapeCasts_S128_S1x128 := by
  have h0 := at4_arg4 m ρ c
  show StableHlo.after hostOps0_4 (W4 m ρ c) (Proc.devRef .tc main_v27) = _
  generalize W4 m ρ c = V at h0 ⊢
  after_results_simp
  rw [h0]
  rfl

set_option maxHeartbeats 4000000 in
theorem at5_arg0 (c : Dev nD) : W5 m ρ c (Proc.devRef .tc main_arg0) = a0 m c := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl

set_option maxHeartbeats 4000000 in
theorem at5_arg1 (c : Dev nD) : W5 m ρ c (Proc.devRef .tc main_arg1) = a1 m c := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl

set_option maxHeartbeats 4000000 in
theorem at5_arg2 (c : Dev nD) : W5 m ρ c (Proc.devRef .tc main_arg2) = a2 m c := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl

set_option maxHeartbeats 4000000 in
theorem at5_arg3 (c : Dev nD) : W5 m ρ c (Proc.devRef .tc main_arg3) = a3 m c := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl

set_option maxHeartbeats 4000000 in
theorem at5_arg5 (c : Dev nD) : W5 m ρ c (Proc.devRef .tc main_arg5) = a5 m c := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl

set_option maxHeartbeats 4000000 in
theorem at5_arg6 (c : Dev nD) : W5 m ρ c (Proc.devRef .tc main_arg6) = a6 m c := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl

set_option maxHeartbeats 4000000 in
theorem at5_arg7 (c : Dev nD) : W5 m ρ c (Proc.devRef .tc main_arg7) = a7 m c := by
  show StableHlo.after hostOps0_4 (StableHlo.after hostOps0_3 (StableHlo.after hostOps0_2 (StableHlo.after hostOps0_1 (StableHlo.after hostOps0 (W0 m ρ c))))) (Proc.devRef .tc main_arg7) = _
  after_results_simp <;> rfl

set_option maxHeartbeats 4000000 in
theorem at5_arg8 (c : Dev nD) : W5 m ρ c (Proc.devRef .tc main_arg8) = a8 m c := by
  show StableHlo.after hostOps0_4 (StableHlo.after hostOps0_3 (StableHlo.after hostOps0_2 (StableHlo.after hostOps0_1 (StableHlo.after hostOps0 (W0 m ρ c))))) (Proc.devRef .tc main_arg8) = _
  after_results_simp <;> rfl

end Cert.KernelIdeal.Chain

end
-- ==== Proof.Spec.lean ====
/-
  The mathematics both programs compute, index by index, over the extended reals.

  A graph-convolution finish at node `n` and feature `f`: the aggregated row times the weight matrix, scaled by the
  node's in-degree norm, plus the bias, clipped below at zero.

  Mean pooling's two sums for graph `g`: over all nodes `n`, the indicator "node `n` belongs to graph `g`" (its
  32-bit graph id is the word `g`) times the node's feature `f`, and the indicator alone (the node count).
-/
import Idealize.ShloMosaic.PureOps.Ideal
import Idealize.ShloMosaic.Lib.ValueIdx

noncomputable section

open scoped BigOperators

namespace Cert.PoolSpec

open Idealize.ShloMosaic Idealize.ShloMosaic.ValueIdx

/-- `relu((agg · W) * norm + b)` at node `i 0`, feature `i 1`: `agg` is [N, K], `W` is [K, 128], `norm` a column [N, 1],
    `b` a row [1, 128]; the clip's zero is kept as the f32 zero word's value. -/
def convOut {K : ℕ} (agg : (⟨2, ![100000, K]⟩ : Shape).Idx → EReal) (norm : (⟨2, ![100000, 1]⟩ : Shape).Idx → EReal)
    (W : (⟨2, ![K, 128]⟩ : Shape).Idx → EReal) (b : (⟨2, ![1, 128]⟩ : Shape).Idx → EReal) :
    (⟨2, ![100000, 128]⟩ : Shape).Idx → EReal :=
  fun i => max ((∑ k : Fin K, agg (ix2 (i 0) k) * W (ix2 k (i 1))) * norm (ix2 (i 0) (0 : Fin 1)) + b (ix2 (0 : Fin 1) (i 1)))
    (Ideal.ofBits .f32 0x00000000#32)

/-- One when node `n`'s graph id is the word `g`, else zero. -/
def member (gid : (⟨2, ![100000, 1]⟩ : Shape).Idx → BitVec 32) (n : Fin 100000) (g : Fin 128) : EReal :=
  if gid (ix2 n (0 : Fin 1)) = BitVec.ofNat 32 g.val then 1 else 0

/-- The per-graph feature sums [G, F]: `∑ₙ [gid n = g] · h n f`. -/
def poolSum (h : (⟨2, ![100000, 128]⟩ : Shape).Idx → EReal) (gid : (⟨2, ![100000, 1]⟩ : Shape).Idx → BitVec 32) :
    (⟨2, ![128, 128]⟩ : Shape).Idx → EReal :=
  fun i => ∑ n : Fin 100000, member gid n (i 0) * h (ix2 n (i 1))

/-- The per-graph node counts as a row [1, G]: `∑ₙ [gid n = g]`. -/
def poolCnt (gid : (⟨2, ![100000, 1]⟩ : Shape).Idx → BitVec 32) : (⟨2, ![1, 128]⟩ : Shape).Idx → EReal :=
  fun i => ∑ n : Fin 100000, member gid n (i 1)

end Cert.PoolSpec

end
-- ==== Proof.ConvValue.lean ====
import proofs.«416134_j13417477832960_1_alg».proof.Proof.Gen.KernelIdeal.Frame
import proofs.«416134_j13417477832960_1_alg».proof.Proof.Spec
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.PoolSpec

variable (V : (c : Dev nD) → (b : Ref sig .tc) → Buf (Elt Ideal) ((c : Thread nD τ).loc b))

/-- The origin of a rank-2 block is the all-zero offset. -/
theorem hz : (![0, 0] : Fin 2 → Nat) = fun _ => 0 := funext fun a => by fin_cases a <;> rfl

/-! ## The first convolution's payload at an index -/

/-- The left operand's row coordinate under the contraction is the output's row. -/
theorem lhs0_0 (i : S5000x128.Idx) (q : dot_S5000x1_S1x128_S5000x128_1_0_0_1_n_n.contr.Idx) :
    (dot_S5000x1_S1x128_S5000x128_1_0_0_1_n_n.lhsIdx i q 0).val = (i 0).val := by
  unfold DotDims.lhsIdx
  rw [dif_neg (show ¬(0 : Fin S5000x1.rank) ∈ dot_S5000x1_S1x128_S5000x128_1_0_0_1_n_n.lhsBatch by decide),
    dif_pos (show (0 : Fin S5000x1.rank) ∈ dot_S5000x1_S1x128_S5000x128_1_0_0_1_n_n.lhsNonContracting by decide)]
  rfl
/-- The left operand's column coordinate is the contraction index. -/
theorem lhs0_1 (i : S5000x128.Idx) (q : dot_S5000x1_S1x128_S5000x128_1_0_0_1_n_n.contr.Idx) :
    (dot_S5000x1_S1x128_S5000x128_1_0_0_1_n_n.lhsIdx i q 1).val = (q ⟨0, by decide⟩).val :=
  dot_S5000x1_S1x128_S5000x128_1_0_0_1_n_n.lhsIdx_val_of_single rfl i q
/-- The right operand's row coordinate is the contraction index. -/
theorem rhs0_0 (i : S5000x128.Idx) (q : dot_S5000x1_S1x128_S5000x128_1_0_0_1_n_n.contr.Idx) :
    (dot_S5000x1_S1x128_S5000x128_1_0_0_1_n_n.rhsIdx i q 0).val = (q ⟨0, by decide⟩).val :=
  dot_S5000x1_S1x128_S5000x128_1_0_0_1_n_n.rhsIdx_val_of_single rfl i q
/-- The right operand's column coordinate is the output's column. -/
theorem rhs0_1 (i : S5000x128.Idx) (q : dot_S5000x1_S1x128_S5000x128_1_0_0_1_n_n.contr.Idx) :
    (dot_S5000x1_S1x128_S5000x128_1_0_0_1_n_n.rhsIdx i q 1).val = (i 1).val := by
  unfold DotDims.rhsIdx
  rw [dif_neg (show ¬(1 : Fin S1x128.rank) ∈ dot_S5000x1_S1x128_S5000x128_1_0_0_1_n_n.rhsBatch by decide),
    dif_pos (show (1 : Fin S1x128.rank) ∈ dot_S5000x1_S1x128_S5000x128_1_0_0_1_n_n.rhsNonContracting by decide)]
  rfl

/-- The block product at row `r`, column `f`: the sum over the one contraction coordinate. -/
theorem mm0_apply (a : FVec Ideal S5000x1 .bf16) (w : FVec Ideal S1x128 .bf16) (r : Fin 5000) (f : Fin 128) :
    matmul dot_S5000x1_S1x128_S5000x128_1_0_0_1_n_n none a w (constant S5000x128 .f32 0x00000000#32) (ix2 r f)
      = ∑ k : Fin 1, a (ix2 r k) * w (ix2 k f) := by
  simp only [matmul]
  rw [Ideal.matmul_constant_zero_apply, ← Equiv.sum_comp (ValueIdx.contrEquiv1 dot_S5000x1_S1x128_S5000x128_1_0_0_1_n_n 1 rfl rfl).symm]
  refine Finset.sum_congr rfl fun k _ => ?_
  have hk := ValueIdx.contrEquiv1_symm_val dot_S5000x1_S1x128_S5000x128_1_0_0_1_n_n 1 rfl rfl k
  have el : dot_S5000x1_S1x128_S5000x128_1_0_0_1_n_n.lhsIdx (ix2 r f) ((ValueIdx.contrEquiv1 dot_S5000x1_S1x128_S5000x128_1_0_0_1_n_n 1 rfl rfl).symm k) = ix2 r k := funext fun b => Fin.ext (by
    match b with
    | ⟨0, _⟩ => exact lhs0_0 _ _
    | ⟨1, _⟩ => exact (lhs0_1 _ _).trans hk)
  have er : dot_S5000x1_S1x128_S5000x128_1_0_0_1_n_n.rhsIdx (ix2 r f) ((ValueIdx.contrEquiv1 dot_S5000x1_S1x128_S5000x128_1_0_0_1_n_n 1 rfl rfl).symm k) = ix2 k f := funext fun b => Fin.ext (by
    match b with
    | ⟨0, _⟩ => exact (rhs0_0 _ _).trans hk
    | ⟨1, _⟩ => exact rhs0_1 _ _)
  rw [el, er]

/-- A column [5000,1] broadcast along the features reads its row's one entry. -/
theorem bcol_apply (x : FVec Ideal S5000x1 .f32) (r : Fin 5000) (f : Fin 128) :
    broadcastTo S5000x128 x broadcasts_S5000x1_S5000x128 (ix2 r f) = x (ix2 r 0) :=
  broadcastTo_apply x broadcasts_S5000x1_S5000x128 (ix2 r f) (ix2 r 0) (fun b => match b with
    | ⟨0, _⟩ => by show r.val = if (5000 : Nat) = 1 then 0 else r.val; rw [if_neg (by decide)]
    | ⟨1, _⟩ => by show (0 : Nat) = if (1 : Nat) = 1 then 0 else f.val; rw [if_pos rfl])

/-- A row [1,128] broadcast along the nodes reads its column's one entry. -/
theorem brow_apply (x : FVec Ideal S1x128 .f32) (r : Fin 5000) (f : Fin 128) :
    broadcastTo S5000x128 x broadcasts_S1x128_S5000x128 (ix2 r f) = x (ix2 0 f) :=
  broadcastTo_apply x broadcasts_S1x128_S5000x128 (ix2 r f) (ix2 0 f) (fun b => match b with
    | ⟨0, _⟩ => by show (0 : Nat) = if (1 : Nat) = 1 then 0 else r.val; rw [if_pos rfl]
    | ⟨1, _⟩ => by show f.val = if (128 : Nat) = 1 then 0 else f.val; rw [if_neg (by decide)])

/-- The first convolution's stored block at row `r`, feature `f`: the clipped, biased, scaled product. -/
theorem pay0_apply (x0 : Vec Ideal S5000x1 .f32) (x2 : Vec Ideal S1x128 .f32) (x1 : Vec Ideal S5000x1 .f32) (x3 : Vec Ideal S1x128 .f32)
    (r : Fin 5000) (f : Fin 128) :
    k0_pay1 (F := Ideal) x0 x2 x1 x3 (ix2 r f)
      = max ((∑ k : Fin 1, x0 (ix2 r k) * x2 (ix2 k f)) * x1 (ix2 r 0) + x3 (ix2 0 f)) (Ideal.ofBits .f32 0x00000000#32) := by
  unfold k0_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · refine (mm0_apply _ _ r f).trans ?_
      rw [shapeCast_self]
      rfl
    · refine (bcol_apply _ r f).trans ?_
      rw [shapeCast_self]
  · refine (brow_apply _ r f).trans ?_
    rw [shapeCast_self]

/-- One entry of the stored block against one entry of the finish: if the four loaded blocks read the four arrays at
    node `i 0` and feature `i 1`, the stored value at row `r`, column `f` is the finish at `i`. -/
theorem conv0_point (A Nm : S100000x1.Idx → EReal) (W B : S1x128.Idx → EReal)
    (x0 x1 : Vec Ideal S5000x1 .f32) (x2 x3 : Vec Ideal S1x128 .f32) (i : S100000x128.Idx) (r : Fin 5000) (f : Fin 128)
    (h0 : ∀ k : Fin 1, x0 (ix2 r k) = A (ix2 (i 0) k)) (h1 : x1 (ix2 r 0) = Nm (ix2 (i 0) (0 : Fin 1)))
    (h2 : ∀ k : Fin 1, x2 (ix2 k f) = W (ix2 k (i 1))) (h3 : x3 (ix2 0 f) = B (ix2 (0 : Fin 1) (i 1))) :
    k0_pay1 (F := Ideal) x0 x2 x1 x3 (ix2 r f) = convOut (K := 1) A Nm W B i := by
  refine (pay0_apply x0 x2 x1 x3 r f).trans ?_
  unfold convOut
  rw [h1, h3]
  refine congrArg₂ max (congrArg₂ (· + ·) (congrArg₂ (· * ·) (Finset.sum_congr rfl fun k _ => ?_) rfl) rfl) rfl
  rw [h0, h2]

/-! ## The first convolution: what each grid point writes back -/

/-- The printed index maps, decided over the grid: the node blocks of the aggregate, the norm column and the output all sit
    at block row `t`, block column 0; the weight and the bias are whole, at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the finish of the region-entry arrays. -/
theorem flushed0_eq (c : Dev nD) (t : Fin cfg0.N) :
    (dat0 (F := Ideal) V c).flushed 4 t = ((cfg0.win 4).blk t).view.read (Elt Ideal) (convOut (K := 1) (V c main_v25) (V c main_v26) (V c main_arg3) (V c main_v27)) := by
  show (cfg0.win 4).cut (grid0.coords t) ((dat0 V c).after 4 t) = _
  rw [after0_4]
  unfold out0_4
  rw [View.canon_unit_zero hz]
  simp only [View.ld_unit_zero (S := S5000x1) hz, View.ld_unit_zero (S := S1x128) hz]
  funext j
  obtain ⟨r, f, rfl⟩ : ∃ (r : Fin 5000) (f : Fin 128), j = ix2 r f := ⟨j 0, j 1, eq_ix2 j⟩
  obtain ⟨e00, e01, e10, e11, e20, e21, e30, e31, e40, e41⟩ := idx_facts0 t
  refine conv0_point (V c main_v25) (V c main_v26) (V c main_arg3) (V c main_v27) (iblk0 V c 0 t) (iblk0 V c 1 t) (iblk0 V c 2 t) (iblk0 V c 3 t)
    (((cfg0.win 4).blk t).view.emb (ix2 r f)) r f (fun k => ?_) ?_ (fun k => ?_) ?_
  · show V c main_v25 (((cfg0.win 0).blk t).view.emb (ix2 r k)) = _
    refine congrArg _ (funext fun a => Fin.ext ?_)
    match a with
    | ⟨0, _⟩ => show win0_0.index t (0 : Fin 2) * 5000 + 1 * r.val = win0_4.index t (0 : Fin 2) * 5000 + 1 * r.val; omega
    | ⟨1, _⟩ => show win0_0.index t (1 : Fin 2) * 1 + 1 * k.val = k.val; omega
  · show V c main_v26 (((cfg0.win 1).blk t).view.emb (ix2 r 0)) = _
    refine congrArg _ (funext fun a => Fin.ext ?_)
    match a with
    | ⟨0, _⟩ => show win0_1.index t (0 : Fin 2) * 5000 + 1 * r.val = win0_4.index t (0 : Fin 2) * 5000 + 1 * r.val; omega
    | ⟨1, _⟩ => show win0_1.index t (1 : Fin 2) * 1 + 1 * 0 = 0; omega
  · show V c main_arg3 (((cfg0.win 2).blk t).view.emb (ix2 k f)) = _
    refine congrArg _ (funext fun a => Fin.ext ?_)
    match a with
    | ⟨0, _⟩ => show win0_2.index t (0 : Fin 2) * 1 + 1 * k.val = k.val; omega
    | ⟨1, _⟩ => show win0_2.index t (1 : Fin 2) * 128 + 1 * f.val = win0_4.index t (1 : Fin 2) * 128 + 1 * f.val; omega
  · show V c main_v27 (((cfg0.win 3).blk t).view.emb (ix2 0 f)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * f.val = win0_4.index t (1 : Fin 2) * 128 + 1 * f.val; omega

/-! ## The first convolution: from blocks to the array -/

/-- A node-feature index is in point `t`'s output block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v28).slice (win0_4.rect t)).set ↔ _
  rw [View.set_slice_whole, Rect.mem_set_unit]
  exact Iff.rfl

/-- Every node-feature index is written back by some point: node `n` by point `n / 5000`. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, -, -, -, e40, e41⟩ := idx_facts0 t
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the first convolution's region its result array holds the finish of the region-entry arrays. -/
theorem conv0_final (c : Dev nD) :
    (dat0 (F := Ideal) V c).arrAt 4 cfg0.N = convOut (K := 1) (V c main_v25) (V c main_v26) (V c main_arg3) (V c main_v27) :=
  (dat0 (F := Ideal) V c).arrAt_eq_of_cover 4 _ (fun t _ => flushed0_eq V c t) cover0

/-! ## The second convolution's payload at an index -/

/-- The left operand's row coordinate under the contraction is the output's row. -/
theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column coordinate is the contraction index. -/
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product at row `r`, column `f`: the sum over the 128 contraction coordinates. -/
theorem mm1_apply (a : FVec Ideal S5000x128 .bf16) (w : FVec Ideal S128x128 .bf16) (r : Fin 5000) (f : Fin 128) :
    matmul dot_S5000x128_S128x128_S5000x128_1_0_0_1_n_n none a w (constant S5000x128 .f32 0x00000000#32) (ix2 r f)
      = ∑ k : Fin 128, a (ix2 r k) * w (ix2 k f) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r f) ((ValueIdx.contrEquiv1 dot_S5000x128_S128x128_S5000x128_1_0_0_1_n_n 128 rfl rfl).symm k) = ix2 r k := funext fun b => Fin.ext (by
    match b with
    | ⟨0, _⟩ => exact lhs1_0 _ _
    | ⟨1, _⟩ => exact (lhs1_1 _ _).trans hk)
  have er : dot_S5000x128_S128x128_S5000x128_1_0_0_1_n_n.rhsIdx (ix2 r f) ((ValueIdx.contrEquiv1 dot_S5000x128_S128x128_S5000x128_1_0_0_1_n_n 128 rfl rfl).symm k) = ix2 k f := funext fun b => Fin.ext (by
    match b with
    | ⟨0, _⟩ => exact (rhs1_0 _ _).trans hk
    | ⟨1, _⟩ => exact rhs1_1 _ _)
  rw [el, er]

/-- The second convolution's stored block at row `r`, feature `f`: the clipped, biased, scaled product. -/
theorem pay1_apply (x0 : Vec Ideal S5000x128 .f32) (x2 : Vec Ideal S128x128 .f32) (x1 : Vec Ideal S5000x1 .f32) (x3 : Vec Ideal S1x128 .f32)
    (r : Fin 5000) (f : Fin 128) :
    k1_pay1 (F := Ideal) x0 x2 x1 x3 (ix2 r f)
      = max ((∑ k : Fin 128, x0 (ix2 r k) * x2 (ix2 k f)) * x1 (ix2 r 0) + x3 (ix2 0 f)) (Ideal.ofBits .f32 0x00000000#32) := by
  unfold k1_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · refine (mm1_apply _ _ r f).trans ?_
      rw [shapeCast_self]
      rfl
    · refine (bcol_apply _ r f).trans ?_
      rw [shapeCast_self]
  · refine (brow_apply _ r f).trans ?_
    rw [shapeCast_self]

/-- One entry of the stored block against one entry of the finish: if the four loaded blocks read the four arrays at
    node `i 0` and feature `i 1`, the stored value at row `r`, column `f` is the finish at `i`. -/
theorem conv1_point (A : S100000x128.Idx → EReal) (Nm : S100000x1.Idx → EReal) (W : S128x128.Idx → EReal) (B : S1x128.Idx → EReal)
    (x0 : Vec Ideal S5000x128 .f32) (x1 : Vec Ideal S5000x1 .f32) (x2 : Vec Ideal S128x128 .f32) (x3 : Vec Ideal S1x128 .f32)
    (i : S100000x128.Idx) (r : Fin 5000) (f : Fin 128)
    (h0 : ∀ k : Fin 128, x0 (ix2 r k) = A (ix2 (i 0) k)) (h1 : x1 (ix2 r 0) = Nm (ix2 (i 0) (0 : Fin 1)))
    (h2 : ∀ k : Fin 128, x2 (ix2 k f) = W (ix2 k (i 1))) (h3 : x3 (ix2 0 f) = B (ix2 (0 : Fin 1) (i 1))) :
    k1_pay1 (F := Ideal) x0 x2 x1 x3 (ix2 r f) = convOut (K := 128) A Nm W B i := by
  refine (pay1_apply x0 x2 x1 x3 r f).trans ?_
  unfold convOut
  rw [h1, h3]
  refine congrArg₂ max (congrArg₂ (· + ·) (congrArg₂ (· * ·) (Finset.sum_congr rfl fun k _ => ?_) rfl) rfl) rfl
  rw [h0, h2]

/-! ## The second convolution: what each grid point writes back -/

/-- The printed index maps, decided over the grid: the node blocks of the aggregate, the norm column and the output all sit
    at block row `t`, block column 0; the weight and the bias are whole, at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the finish of the region-entry arrays. -/
theorem flushed1_eq (c : Dev nD) (t : Fin cfg1.N) :
    (dat1 (F := Ideal) V c).flushed 4 t = ((cfg1.win 4).blk t).view.read (Elt Ideal) (convOut (K := 128) (V c main_v41) (V c main_v42) (V c main_arg5) (V c main_v43)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz, View.ld_unit_zero (S := S1x128) hz]
  funext j
  obtain ⟨r, f, rfl⟩ : ∃ (r : Fin 5000) (f : Fin 128), j = ix2 r f := ⟨j 0, j 1, eq_ix2 j⟩
  obtain ⟨e00, e01, e10, e11, e20, e21, e30, e31, e40, e41⟩ := idx_facts1 t
  refine conv1_point (V c main_v41) (V c main_v42) (V c main_arg5) (V c main_v43) (iblk1 V c 0 t) (iblk1 V c 1 t) (iblk1 V c 2 t) (iblk1 V c 3 t)
    (((cfg1.win 4).blk t).view.emb (ix2 r f)) r f (fun k => ?_) ?_ (fun k => ?_) ?_
  · show V c main_v41 (((cfg1.win 0).blk t).view.emb (ix2 r k)) = _
    refine congrArg _ (funext fun a => Fin.ext ?_)
    match a with
    | ⟨0, _⟩ => show win1_0.index t (0 : Fin 2) * 5000 + 1 * r.val = win1_4.index t (0 : Fin 2) * 5000 + 1 * r.val; omega
    | ⟨1, _⟩ => show win1_0.index t (1 : Fin 2) * 128 + 1 * k.val = k.val; omega
  · show V c main_v42 (((cfg1.win 1).blk t).view.emb (ix2 r 0)) = _
    refine congrArg _ (funext fun a => Fin.ext ?_)
    match a with
    | ⟨0, _⟩ => show win1_1.index t (0 : Fin 2) * 5000 + 1 * r.val = win1_4.index t (0 : Fin 2) * 5000 + 1 * r.val; omega
    | ⟨1, _⟩ => show win1_1.index t (1 : Fin 2) * 1 + 1 * 0 = 0; omega
  · show V c main_arg5 (((cfg1.win 2).blk t).view.emb (ix2 k f)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * f.val = win1_4.index t (1 : Fin 2) * 128 + 1 * f.val; omega
  · show V c main_v43 (((cfg1.win 3).blk t).view.emb (ix2 0 f)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * f.val = win1_4.index t (1 : Fin 2) * 128 + 1 * f.val; omega

/-! ## The second convolution: from blocks to the array -/

/-- A node-feature index is in point `t`'s output block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every node-feature index is written back by some point: node `n` by point `n / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the second convolution's region its result array holds the finish of the region-entry arrays. -/
theorem conv1_final (c : Dev nD) :
    (dat1 (F := Ideal) V c).arrAt 4 cfg1.N = convOut (K := 128) (V c main_v41) (V c main_v42) (V c main_arg5) (V c main_v43) :=
  (dat1 (F := Ideal) V c).arrAt_eq_of_cover 4 _ (fun t _ => flushed1_eq V c t) cover1

end Cert.KernelIdeal.ConvValue

end
-- ==== Proof.RefConv.lean ====
import proofs.«416134_j13417477832960_1_alg».proof.Proof.Gen.ReferenceIdeal.Read
import proofs.«416134_j13417477832960_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.ConvBridge

open Cert.ReferenceIdeal Cert.ReferenceIdeal.Gen Cert.ReferenceIdeal.Read Cert.PoolSpec

/-- An `[a]` array cast to a column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reference's first convolution (dot_general, scale by the broadcast in-degree norm, add the broadcast bias, relu)
    is the finish of its aggregated array, the norm and bias read as a column and a row. -/
theorem ref_conv1 (x0 x1 : (⟨S1600000, .i32⟩ : BufTy).Contents (Elt Ideal)) (x3 : (⟨S1x128, .f32⟩ : BufTy).Contents (Elt Ideal))
    (x4 : (⟨S128, .f32⟩ : BufTy).Contents (Elt Ideal)) (hn : S100000.ShapeCasts S100000x1) (hb : S128.ShapeCasts S1x128) :
    val_main_v33 (F := Ideal) x0 x1 x3 x4
      = convOut (K := 1) (val_main_v25 (F := Ideal) x0 x1) (shapeCast S100000x1 (val_main_v12 (F := Ideal) x1) hn) x3 (shapeCast S1x128 x4 hb) := by
  funext i
  obtain ⟨n, f, rfl⟩ : ∃ (n : Fin 100000) (f : Fin 128), i = ix2 n f := ⟨i 0, i 1, eq_ix2 i⟩
  rw [val_main_v33_apply, val_main_v32_apply, val_main_v29_apply, val_main_v26_apply, val_main_v28_apply, val_main_v27_apply,
    val_main_v31_apply, val_main_v30_apply, val_main_call2_v0_apply, val_main_call2_cst_apply]
  generalize val_main_v25 (F := Ideal) x0 x1 = agg
  generalize val_main_v12 (F := Ideal) x1 = nd
  unfold convOut
  -- the composed index maps, by coordinates
  have e1 : ∀ k : Fin 1, lidx_main_v26 (ix2 n f) k = ix2 n k := fun k => funext fun a => by
    match a with | ⟨0, _⟩ => rfl | ⟨1, _⟩ => rfl
  have e2 : ∀ k : Fin 1, ridx_main_v26 (ix2 n f) k = ix2 k f := fun k => funext fun a => by
    match a with | ⟨0, _⟩ => rfl | ⟨1, _⟩ => rfl
  have e3 : idx_main_v27 (idx_main_v28 (ix2 n f)) = ix1 n := funext fun a => by
    match a with | ⟨0, _⟩ => rfl
  have e4 : idx_main_v30 (idx_main_v31 (ix2 n f)) = ix1 f := funext fun a => by
    match a with | ⟨0, _⟩ => rfl
  rw [e3, e4, shapeCast_a_a1_apply, shapeCast_a_1a_apply]
  simp only [e1, e2]
  rfl

/-- The reference's second convolution likewise. -/
theorem ref_conv2 (x0 x1 : (⟨S1600000, .i32⟩ : BufTy).Contents (Elt Ideal)) (x3 : (⟨S1x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (hn : S100000.ShapeCasts S100000x1) (hb : S128.ShapeCasts S1x128) :
    val_main_v54 (F := Ideal) x0 x1 x3 x4 x5 x6
      = convOut (K := 128) (val_main_v46 (F := Ideal) x0 x1 x3 x4) (shapeCast S100000x1 (val_main_v12 (F := Ideal) x1) hn) x5 (shapeCast S1x128 x6 hb) := by
  funext i
  obtain ⟨n, f, rfl⟩ : ∃ (n : Fin 100000) (f : Fin 128), i = ix2 n f := ⟨i 0, i 1, eq_ix2 i⟩
  rw [val_main_v54_apply, val_main_v53_apply, val_main_v50_apply, val_main_v47_apply, val_main_v49_apply, val_main_v48_apply,
    val_main_v52_apply, val_main_v51_apply, val_main_call3_v0_apply, val_main_call3_cst_apply]
  generalize val_main_v46 (F := Ideal) x0 x1 x3 x4 = agg
  generalize val_main_v12 (F := Ideal) x1 = nd
  unfold convOut
  -- the composed index maps, by coordinates
  have e1 : ∀ k : Fin 128, lidx_main_v47 (ix2 n f) k = ix2 n k := fun k => funext fun a => by
    match a with | ⟨0, _⟩ => rfl | ⟨1, _⟩ => rfl
  have e2 : ∀ k : Fin 128, ridx_main_v47 (ix2 n f) k = ix2 k f := fun k => funext fun a => by
    match a with | ⟨0, _⟩ => rfl | ⟨1, _⟩ => rfl
  have e3 : idx_main_v48 (idx_main_v49 (ix2 n f)) = ix1 n := funext fun a => by
    match a with | ⟨0, _⟩ => rfl
  have e4 : idx_main_v51 (idx_main_v52 (ix2 n f)) = ix1 f := funext fun a => by
    match a with | ⟨0, _⟩ => rfl
  rw [e3, e4, shapeCast_a_a1_apply, shapeCast_a_1a_apply]
  simp only [e1, e2]
  rfl

/-- Reshaping a vector to a column is broadcasting it along axis 0 of the column. -/
theorem reshape_col_eq_bcast (y : S128.Idx → EReal) (h : S128.ShapeCasts S128x1) :
    shapeCast S128x1 y h = broadcastInDim S128x1 ![0] bcast_S128_S128x1_0 y := by
  funext i
  obtain ⟨g, u, rfl⟩ : ∃ (g : Fin 128) (u : Fin 1), i = ix2 g u := ⟨i 0, i 1, eq_ix2 i⟩
  rw [shapeCast_a_a1_apply]
  exact (broadcastInDim_apply _ bcast_S128_S128x1_0 y (ix2 g u) (ix1 g) (fun a => match a with
    | ⟨0, _⟩ => by show g.val = if (128 : Nat) = 1 then 0 else g.val; rw [if_neg (by decide)])).symm

end Cert.ReferenceIdeal.ConvBridge

end
-- ==== Proof.HostChainB.lean ====
/-
  What the kernel program's buffers hold across its two convolution regions, as the reference's stages: each region leaves
  the finish of its entry arrays (the reference's dot_general, scale, bias, relu chain), and the host stretch between them
  applies the reference's own gather and segment sum.
-/
import proofs.«416134_j13417477832960_1_alg».proof.Proof.HostChainA
import proofs.«416134_j13417477832960_1_alg».proof.Proof.ConvValue
import proofs.«416134_j13417477832960_1_alg».proof.Proof.RefConv
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-! ## The first convolution's region, the second aggregation, the second convolution's region -/

theorem at6_v28 (c : Dev nD) :
    W6 m ρ c (Proc.devRef .tc main_v28) = Cert.ReferenceIdeal.Read.val_main_v33 (F := Ideal) (a0 m c) (a1 m c) (a3 m c) (a4 m c) := by
  refine (W6_arr m ρ c 4).trans ?_
  refine (Cert.KernelIdeal.ConvValue.conv0_final (V5 m ρ) c).trans ?_
  show Cert.PoolSpec.convOut (K := 1) (W5 m ρ c (Proc.devRef .tc main_v25)) (W5 m ρ c (Proc.devRef .tc main_v26)) (W5 m ρ c (Proc.devRef .tc main_arg3)) (W5 m ρ c (Proc.devRef .tc main_v27)) = _
  rw [at5_v25, at5_v26, at5_arg3, at5_v27]
  exact (Cert.ReferenceIdeal.ConvBridge.ref_conv1 _ _ _ _ _ _).symm
theorem at6_v9 (c : Dev nD) : W6 m ρ c (Proc.devRef .tc main_v9) = Cert.ReferenceIdeal.Read.val_main_v9 (F := Ideal) (a0 m c) :=
  (W6_of_ne m ρ c main_v9 (by decide)).trans (at5_v9 m ρ c)
theorem at6_v12 (c : Dev nD) : W6 m ρ c (Proc.devRef .tc main_v12) = Cert.ReferenceIdeal.Read.val_main_v12 (F := Ideal) (a1 m c) :=
  (W6_of_ne m ρ c main_v12 (by decide)).trans (at5_v12 m ρ c)
theorem at6_arg0 (c : Dev nD) : W6 m ρ c (Proc.devRef .tc main_arg0) = a0 m c :=
  (W6_of_ne m ρ c main_arg0 (by decide)).trans (at5_arg0 m ρ c)
theorem at6_arg1 (c : Dev nD) : W6 m ρ c (Proc.devRef .tc main_arg1) = a1 m c :=
  (W6_of_ne m ρ c main_arg1 (by decide)).trans (at5_arg1 m ρ c)
theorem at6_arg2 (c : Dev nD) : W6 m ρ c (Proc.devRef .tc main_arg2) = a2 m c :=
  (W6_of_ne m ρ c main_arg2 (by decide)).trans (at5_arg2 m ρ c)
theorem at6_arg5 (c : Dev nD) : W6 m ρ c (Proc.devRef .tc main_arg5) = a5 m c :=
  (W6_of_ne m ρ c main_arg5 (by decide)).trans (at5_arg5 m ρ c)
theorem at6_arg6 (c : Dev nD) : W6 m ρ c (Proc.devRef .tc main_arg6) = a6 m c :=
  (W6_of_ne m ρ c main_arg6 (by decide)).trans (at5_arg6 m ρ c)
theorem at6_arg7 (c : Dev nD) : W6 m ρ c (Proc.devRef .tc main_arg7) = a7 m c :=
  (W6_of_ne m ρ c main_arg7 (by decide)).trans (at5_arg7 m ρ c)
theorem at6_arg8 (c : Dev nD) : W6 m ρ c (Proc.devRef .tc main_arg8) = a8 m c :=
  (W6_of_ne m ρ c main_arg8 (by decide)).trans (at5_arg8 m ρ c)

set_option maxHeartbeats 4000000 in
theorem at7_v41 (c : Dev nD) : W7 m ρ c (Proc.devRef .tc main_v41) = Cert.ReferenceIdeal.Read.val_main_v46 (F := Ideal) (a0 m c) (a1 m c) (a3 m c) (a4 m c) := by
  show StableHlo.after hostOps1 (W6 m ρ c) (Proc.devRef .tc main_v41) = _
  after_results_simp
  rw [at6_v28, at6_v9, at6_arg0, at6_arg1]
  rfl

set_option maxHeartbeats 4000000 in
theorem at7_v42 (c : Dev nD) : W7 m ρ c (Proc.devRef .tc main_v42) = shapeCast S100000x1 (Cert.ReferenceIdeal.Read.val_main_v12 (F := Ideal) (a1 m c)) shapeCasts_S100000_S100000x1 := by
  show StableHlo.after hostOps1 (W6 m ρ c) (Proc.devRef .tc main_v42) = _
  after_results_simp
  rw [at6_v12]
  rfl

set_option maxHeartbeats 4000000 in
theorem at7_v43 (c : Dev nD) : W7 m ρ c (Proc.devRef .tc main_v43) = shapeCast S1x128 (a6 m c) shapeCasts_S128_S1x128 := by
  show StableHlo.after hostOps1 (W6 m ρ c) (Proc.devRef .tc main_v43) = _
  after_results_simp
  rw [at6_arg6]
  rfl

set_option maxHeartbeats 4000000 in
theorem at7_arg2 (c : Dev nD) : W7 m ρ c (Proc.devRef .tc main_arg2) = a2 m c := by
  show StableHlo.after hostOps1 (W6 m ρ c) (Proc.devRef .tc main_arg2) = _
  after_results_simp
  exact at6_arg2 m ρ c

set_option maxHeartbeats 4000000 in
theorem at7_arg5 (c : Dev nD) : W7 m ρ c (Proc.devRef .tc main_arg5) = a5 m c := by
  show StableHlo.after hostOps1 (W6 m ρ c) (Proc.devRef .tc main_arg5) = _
  after_results_simp
  exact at6_arg5 m ρ c

set_option maxHeartbeats 4000000 in
theorem at7_arg7 (c : Dev nD) : W7 m ρ c (Proc.devRef .tc main_arg7) = a7 m c := by
  show StableHlo.after hostOps1 (W6 m ρ c) (Proc.devRef .tc main_arg7) = _
  after_results_simp
  exact at6_arg7 m ρ c

set_option maxHeartbeats 4000000 in
theorem at7_arg8 (c : Dev nD) : W7 m ρ c (Proc.devRef .tc main_arg8) = a8 m c := by
  show StableHlo.after hostOps1 (W6 m ρ c) (Proc.devRef .tc main_arg8) = _
  after_results_simp
  exact at6_arg8 m ρ c

theorem at8_v44 (c : Dev nD) :
    W8 m ρ c (Proc.devRef .tc main_v44) = Cert.ReferenceIdeal.Read.val_main_v54 (F := Ideal) (a0 m c) (a1 m c) (a3 m c) (a4 m c) (a5 m c) (a6 m c) := by
  refine (W8_arr m ρ c 4).trans ?_
  refine (Cert.KernelIdeal.ConvValue.conv1_final (V7 m ρ) c).trans ?_
  show Cert.PoolSpec.convOut (K := 128) (W7 m ρ c (Proc.devRef .tc main_v41)) (W7 m ρ c (Proc.devRef .tc main_v42)) (W7 m ρ c (Proc.devRef .tc main_arg5)) (W7 m ρ c (Proc.devRef .tc main_v43)) = _
  rw [at7_v41, at7_v42, at7_arg5, at7_v43]
  exact (Cert.ReferenceIdeal.ConvBridge.ref_conv2 _ _ _ _ _ _ _ _).symm
theorem at8_arg2 (c : Dev nD) : W8 m ρ c (Proc.devRef .tc main_arg2) = a2 m c :=
  (W8_of_ne m ρ c main_arg2 (by decide)).trans (at7_arg2 m ρ c)
theorem at8_arg7 (c : Dev nD) : W8 m ρ c (Proc.devRef .tc main_arg7) = a7 m c :=
  (W8_of_ne m ρ c main_arg7 (by decide)).trans (at7_arg7 m ρ c)
theorem at8_arg8 (c : Dev nD) : W8 m ρ c (Proc.devRef .tc main_arg8) = a8 m c :=
  (W8_of_ne m ρ c main_arg8 (by decide)).trans (at7_arg8 m ρ c)

theorem at9_v44 (c : Dev nD) :
    W9 m ρ c (Proc.devRef .tc main_v44) = Cert.ReferenceIdeal.Read.val_main_v54 (F := Ideal) (a0 m c) (a1 m c) (a3 m c) (a4 m c) (a5 m c) (a6 m c) := by
  show StableHlo.after hostOps2 (W8 m ρ c) (Proc.devRef .tc main_v44) = _
  after_results_simp
  exact at8_v44 m ρ c

theorem at9_v45 (c : Dev nD) :
    W9 m ρ c (Proc.devRef .tc main_v45) = shapeCast S100000x1 (a2 m c) shapeCasts_S100000_S100000x1 := by
  show StableHlo.after hostOps2 (W8 m ρ c) (Proc.devRef .tc main_v45) = _
  after_results_simp
  rw [at8_arg2]
  rfl

theorem at9_arg7 (c : Dev nD) : W9 m ρ c (Proc.devRef .tc main_arg7) = a7 m c := by
  show StableHlo.after hostOps2 (W8 m ρ c) (Proc.devRef .tc main_arg7) = _
  after_results_simp
  exact at8_arg7 m ρ c

theorem at9_arg8 (c : Dev nD) : W9 m ρ c (Proc.devRef .tc main_arg8) = a8 m c := by
  show StableHlo.after hostOps2 (W8 m ρ c) (Proc.devRef .tc main_arg8) = _
  after_results_simp
  exact at8_arg8 m ρ c

end Cert.KernelIdeal.Chain

end
-- ==== Proof.PoolMath.lean ====
import proofs.«416134_j13417477832960_1_alg».proof.Proof.Gen.KernelIdeal.Skeleton
import proofs.«416134_j13417477832960_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.PoolMath

open Cert.KernelIdeal Cert.KernelIdeal.Gen Cert.PoolSpec

/-- One block's contribution to the per-graph feature sums: over the block's 5000 rows `k`, the indicator
    "row `k`'s graph id is the word `g`" times the row's feature `f`. -/
def blkSum (x0 : Vec Ideal S5000x128 .f32) (x1 : Vec Ideal S5000x1 .i32) : S128x128.Idx → EReal :=
  fun i => ∑ k : Fin 5000, (if x1 (ix2 k (0 : Fin 1)) = BitVec.ofNat 32 (i 0).val then (1 : EReal) else 0) * x0 (ix2 k (i 1))

/-- One block's contribution to the per-graph node counts. -/
def blkCnt (x1 : Vec Ideal S5000x1 .i32) : S1x128.Idx → EReal :=
  fun i => ∑ k : Fin 5000, (if x1 (ix2 k (0 : Fin 1)) = BitVec.ofNat 32 (i 1).val then (1 : EReal) else 0)

/-- The reset payloads are the zero arrays. -/
theorem pay1_eq : k2_pay1 (F := Ideal) = fun _ => (0 : EReal) := by
  funext i
  show Ideal.ofBits .f32 0x00000000#32 = 0
  exact Ideal.ofBits_zero_f32
theorem pay2_eq : k2_pay2 (F := Ideal) = fun _ => (0 : EReal) := by
  funext i
  show Ideal.ofBits .f32 0x00000000#32 = 0
  exact Ideal.ofBits_zero_f32

/-- A column broadcast along the lanes reads, at row `k` and lane `g`, the column's row `k`. -/
theorem bcast_col {α : Type} (y : S5000x1.Idx → α) (h : S5000x1.Broadcasts S5000x128) (k : Fin 5000) (g : Fin 128) :
    broadcastTo S5000x128 y h (ix2 k g) = y (ix2 k (0 : Fin 1)) :=
  broadcastTo_apply y h (ix2 k g) (ix2 k (0 : Fin 1)) (fun a => match a with
    | ⟨0, _⟩ => by show k.val = if (5000 : ℕ) = 1 then 0 else k.val; rw [if_neg (by decide)]
    | ⟨1, _⟩ => by show 0 = if (1 : ℕ) = 1 then 0 else g.val; rw [if_pos rfl])

/-- The lane counter reads, at row `k` and lane `g`, the word `g`. -/
theorem iota_lane (h : S5000x128.Iotas .tc 32 [1]) (k : Fin 5000) (g : Fin 128) :
    iota .tc S5000x128 32 [1] h (ix2 k g) = BitVec.ofNat 32 g.val :=
  iota_single_apply .tc S5000x128 32 1 h (ix2 k g)

/-- The membership bit at row `k`, lane `g`: the comparison of the row's graph id with the word `g`. -/
theorem pay3_apply (x1 : Vec Ideal S5000x1 .i32) (k : Fin 5000) (g : Fin 128) :
    k2_pay3 (F := Ideal) x1 (ix2 k g) = IntOp.cmpi .eq (x1 (ix2 k (0 : Fin 1))) (BitVec.ofNat 32 g.val) := by
  unfold k2_pay3
  show IntOp.cmpi .eq (broadcastTo S5000x128 (shapeCast S5000x1 x1 shapeCasts_S5000x1_S5000x1) broadcasts_S5000x1_S5000x128 (ix2 k g))
      (iota .tc S5000x128 32 [1] iota_S5000x128_d1_w32 (ix2 k g)) = _
  refine congrArg₂ (IntOp.cmpi .eq) ?_ (iota_lane _ k g)
  refine (bcast_col _ _ k g).trans ?_
  exact congrFun (shapeCast_self x1 _) _

/-- The comparison bit, widened to 32 bits and read as a signed integer, is the indicator of equality. -/
theorem onehot_val (a b : BitVec 32) :
    ((((IntOp.cmpi .eq a b).setWidth 32).toInt : ℝ) : EReal) = if a = b then 1 else 0 := by
  unfold IntOp.cmpi
  by_cases h : a = b
  · have hb : (a == b) = true := by simp [h]
    rw [if_pos h]
    show ((((BitVec.ofBool (a == b)).setWidth 32).toInt : ℝ) : EReal) = 1
    rw [hb]
    have : ((BitVec.ofBool true).setWidth 32).toInt = 1 := by decide
    rw [this]; simp
  · have hb : (a == b) = false := by simp [h]
    rw [if_neg h]
    show ((((BitVec.ofBool (a == b)).setWidth 32).toInt : ℝ) : EReal) = 0
    rw [hb]
    have : ((BitVec.ofBool false).setWidth 32).toInt = 0 := by decide
    rw [this]; simp

/-- The one-hot float at row `k`, lane `g`. -/
theorem onehot_apply (x1 : Vec Ideal S5000x1 .i32) (k : Fin 5000) (g : Fin 128) :
    (sitofp .f32 (extui 32 (k2_pay3 (F := Ideal) x1) natLt_1_32) : FVec Ideal S5000x128 .f32) (ix2 k g)
      = if x1 (ix2 k (0 : Fin 1)) = BitVec.ofNat 32 g.val then (1 : EReal) else 0 := by
  show ((((k2_pay3 (F := Ideal) x1 (ix2 k g)).setWidth 32).toInt : ℝ) : EReal) = _
  rw [pay3_apply]
  exact onehot_val _ _

/-! The product's dimension numbers contract the rows of both operands: the output's first coordinate is the left
    operand's lane, its second the right operand's lane. -/

theorem lhs_dot_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_dot_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_dot_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_dot_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The product into the zero array, at `(g, f)`: the sum over the 5000 rows of the operands' lanes `g` and `f`. -/
theorem dot_apply {φ₁ φ₂ : FTy} (L : FVec Ideal S5000x128 φ₁) (R : FVec Ideal S5000x128 φ₂) (g f : Fin 128) :
    matmul dot_S5000x128_S5000x128_S128x128_0_0_1_1_n_n none L R (constant S128x128 .f32 0x00000000#32) (ix2 g f)
      = ∑ k : Fin 5000, L (ix2 k g) * R (ix2 k f) := by
  simp only [matmul]
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g f) ((contrEquiv1 dot_S5000x128_S5000x128_S128x128_0_0_1_1_n_n 5000 rfl rfl).symm k) = ix2 k g := funext fun a => Fin.ext (by
    match a with
    | ⟨0, _⟩ => exact (lhs_dot_0 _ _).trans hk
    | ⟨1, _⟩ => exact lhs_dot_1 _ _)
  have er : dot_S5000x128_S5000x128_S128x128_0_0_1_1_n_n.rhsIdx (ix2 g f) ((contrEquiv1 dot_S5000x128_S5000x128_S128x128_0_0_1_1_n_n 5000 rfl rfl).symm k) = ix2 k f := funext fun a => Fin.ext (by
    match a with
    | ⟨0, _⟩ => exact (rhs_dot_0 _ _).trans hk
    | ⟨1, _⟩ => exact rhs_dot_1 _ _)
  rw [el, er]

/-- The sums payload: the running sums plus the one-hot matrix product of the block, entry by entry. -/
theorem pay4_eq (x0 : Vec Ideal S5000x128 .f32) (x1 : Vec Ideal S5000x1 .i32) (xo : Vec Ideal S128x128 .f32) :
    k2_pay4 (F := Ideal) x0 x1 xo = fun i => xo i + blkSum x0 x1 i := by
  funext i
  obtain ⟨g, f, rfl⟩ : ∃ g f, i = ix2 g f := ⟨i 0, i 1, eq_ix2 i⟩
  unfold k2_pay4
  show shapeCast S128x128 xo shapeCasts_S128x128_S128x128 (ix2 g f)
      + matmul dot_S5000x128_S5000x128_S128x128_0_0_1_1_n_n none
          (truncf .bf16 (sitofp .f32 (extui 32 (k2_pay3 (F := Ideal) x1) natLt_1_32) : FVec Ideal S5000x128 .f32) bitsLt_bf16_f32 : FVec Ideal S5000x128 .bf16)
          (truncf .bf16 (shapeCast S5000x128 x0 shapeCasts_S5000x128_S5000x128 : FVec Ideal S5000x128 .f32) bitsLt_bf16_f32 : FVec Ideal S5000x128 .bf16)
          (constant S128x128 .f32 0x00000000#32) (ix2 g f) = _
  refine (congrArg₂ (· + ·) (congrFun (shapeCast_self xo _) _) (dot_apply _ _ g f)).trans ?_
  refine congrArg (xo (ix2 g f) + ·) ?_
  unfold blkSum
  refine Finset.sum_congr rfl fun k _ => ?_
  refine congrArg₂ (· * ·) (onehot_apply x1 k g) ?_
  exact congrFun (shapeCast_self x0 _) _

/-- The column sums of a [5000, 128] array viewed as a [1, 128] row: at lane `g`, the sum over the rows. -/
theorem colsum_apply (v : FVec Ideal S5000x128 .f32) (u : Fin 1) (g : Fin 128) :
    shapeCast S1x128 (multiReduction .add [0] S128 v 0x00000000#32 reduces_S5000x128_S128 (.inl rfl) rfl : FVec Ideal S128 .f32)
        shapeCasts_S128_S1x128 (ix2 u g)
      = ∑ k : Fin 5000, v (ix2 k g) := by
  refine (shapeCast_a_1a_apply _ shapeCasts_S128_S1x128 u g).trans ?_
  refine (Ideal.multiReduction_add_single v _ reduces_S5000x128_S128 _ _ (ix1 g)).trans ?_
  refine Finset.sum_congr rfl fun k _ => congrArg v ?_
  exact Shape.idx_ext₂ rfl rfl

/-- The counts payload: the running counts plus the column sums of the one-hot matrix. -/
theorem pay5_eq (x1 : Vec Ideal S5000x1 .i32) (xo : Vec Ideal S1x128 .f32) :
    k2_pay5 (F := Ideal) x1 xo = fun i => xo i + blkCnt x1 i := by
  funext i
  obtain ⟨u, g, rfl⟩ : ∃ u g, i = ix2 u g := ⟨i 0, i 1, eq_ix2 i⟩
  unfold k2_pay5
  show shapeCast S1x128 xo shapeCasts_S1x128_S1x128 (ix2 u g)
      + shapeCast S1x128 (multiReduction .add [0] S128
            (sitofp .f32 (extui 32 (k2_pay3 (F := Ideal) x1) natLt_1_32) : FVec Ideal S5000x128 .f32)
            0x00000000#32 reduces_S5000x128_S128 (.inl rfl) rfl : FVec Ideal S128 .f32)
          shapeCasts_S128_S1x128 (ix2 u g) = _
  refine (congrArg₂ (· + ·) (congrFun (shapeCast_self xo _) _) (colsum_apply _ u g)).trans ?_
  refine congrArg (xo (ix2 u g) + ·) ?_
  unfold blkCnt
  exact Finset.sum_congr rfl fun k _ => onehot_apply x1 k g

/-- The 100000 nodes are the 20 blocks of 5000 rows: node `5000 t + k` is row `k` of block `t`. -/
def nodeEquiv : Fin 20 × Fin 5000 ≃ Fin 100000 where
  toFun p := ⟨5000 * p.1.val + p.2.val, by have := p.1.isLt; have := p.2.isLt; omega⟩
  invFun n := (⟨n.val / 5000, by have := n.isLt; omega⟩, ⟨n.val % 5000, by omega⟩)
  left_inv p := by
    obtain ⟨t, k⟩ := p
    have ht := t.isLt; have hk := k.isLt
    refine Prod.ext (Fin.ext ?_) (Fin.ext ?_)
    · show (5000 * t.val + k.val) / 5000 = t.val
      omega
    · show (5000 * t.val + k.val) % 5000 = k.val
      omega
  right_inv n := Fin.ext (by
    show 5000 * (n.val / 5000) + n.val % 5000 = n.val
    omega)

/-- A sum over the 100000 nodes is the sum over the 20 blocks of the sums over each block's 5000 rows. -/
theorem sum_nodes_blocks (f : Fin 100000 → EReal) :
    ∑ n : Fin 100000, f n
      = ∑ t : Fin 20, ∑ k : Fin 5000, f ⟨5000 * t.val + k.val, by have := t.isLt; have := k.isLt; omega⟩ := by
  rw [← Equiv.sum_comp nodeEquiv f, Fintype.sum_prod_type]
  rfl

/-- The 20 blocks' contributions to the feature sums add up to the specification's sum over all nodes. -/
theorem sum_blkSum_eq_poolSum (h : (⟨2, ![100000, 128]⟩ : Shape).Idx → EReal) (gid : (⟨2, ![100000, 1]⟩ : Shape).Idx → BitVec 32)
    (hb : Fin 20 → Vec Ideal S5000x128 .f32) (gb : Fin 20 → Vec Ideal S5000x1 .i32)
    (hh : ∀ (t : Fin 20) (k : Fin 5000) (f : Fin 128), hb t (ix2 k f) = h (ix2 (⟨5000 * t.val + k.val, by have := t.isLt; have := k.isLt; omega⟩ : Fin 100000) f))
    (hg : ∀ (t : Fin 20) (k : Fin 5000), gb t (ix2 k (0 : Fin 1)) = gid (ix2 (⟨5000 * t.val + k.val, by have := t.isLt; have := k.isLt; omega⟩ : Fin 100000) (0 : Fin 1)))
    (i : S128x128.Idx) : ∑ t : Fin 20, blkSum (hb t) (gb t) i = poolSum h gid i := by
  unfold poolSum member blkSum
  rw [sum_nodes_blocks]
  refine Finset.sum_congr rfl fun t _ => Finset.sum_congr rfl fun k _ => ?_
  rw [hh t k (i 1), hg t k]

/-- The 20 blocks' contributions to the node counts add up to the specification's count over all nodes. -/
theorem sum_blkCnt_eq_poolCnt (gid : (⟨2, ![100000, 1]⟩ : Shape).Idx → BitVec 32) (gb : Fin 20 → Vec Ideal S5000x1 .i32)
    (hg : ∀ (t : Fin 20) (k : Fin 5000), gb t (ix2 k (0 : Fin 1)) = gid (ix2 (⟨5000 * t.val + k.val, by have := t.isLt; have := k.isLt; omega⟩ : Fin 100000) (0 : Fin 1)))
    (i : S1x128.Idx) : ∑ t : Fin 20, blkCnt (gb t) i = poolCnt gid i := by
  unfold poolCnt member blkCnt
  rw [sum_nodes_blocks]
  refine Finset.sum_congr rfl fun t _ => Finset.sum_congr rfl fun k _ => ?_
  rw [hg t k]

end Cert.KernelIdeal.PoolMath

end
-- ==== Proof.PoolValue.lean ====
/-
  The pooling region, read as values over the extended reals.

  The region walks the 100000 nodes in 20 blocks of 5000 rows. At the first block it resets its two accumulators (the
  per-graph feature sums [128,128] and the per-graph node counts [1,128]) to zero, and at every block it adds the
  block's contribution: the one-hot matrix "row k of the block belongs to graph g" times the block's features, and that
  matrix's column sums. Both accumulators are carried from block to block and written to their arrays after the last
  block only, the one block of each being its whole array.

  So after block `n` the accumulators hold the sums of the contributions of blocks `0 … n` (by induction on `n`), after
  block 19 the sums over all 20 blocks, and a sum over the 20 blocks of sums over each block's 5000 rows is the sum over
  all nodes: the specification's `poolSum` and `poolCnt` of the arrays the region found.
-/
import proofs.«416134_j13417477832960_1_alg».proof.Proof.Gen.KernelIdeal.Frame
import proofs.«416134_j13417477832960_1_alg».proof.Proof.Spec
import proofs.«416134_j13417477832960_1_alg».proof.Proof.PoolMath
import Idealize.ShloMosaic.Lib.Pipeline.Value
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen Cert.PoolSpec Cert.KernelIdeal.PoolMath

section Pieces

variable {F : FTy → Type} [FloatOps F]

theorem hz : (![0, 0] : Fin 2 → Nat) = fun _ => 0 := funext fun a => by fin_cases a <;> rfl

/-- Past the first point the body leaves, in the sums buffer holding `xo2`, the sums payload of the blocks over `xo2`. -/
theorem out_B_2 (c : Dev nD) (i : grid2.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond2_0 i)
    (x0 : Vec F S5000x128 .f32) (x1 : Vec F S5000x1 .i32) (xo2 : Vec F S128x128 .f32) (xo3 : Vec F S1x128 .f32) :
    out2_B_2 c i a1 h1 a2 h2 a3 h3 a4 h4 hc x0 x1 xo2 xo3 = k2_pay4 x0 x1 xo2 := by
  unfold out2_B_2
  rw [View.read_writes_eq_canon _ _ _ (cover2_B_2 c i a1 h1 a2 h2 a3 h3 a4 h4 hc x0 x1 xo2 xo3)]
  unfold kernelRun2_B
  dsimp only
  sl_unfold_words
  rw [View.canon_unit_zero (S := S128x128) hz]
  simp only [View.readAt_eq_ld, h1.read_unread, h2.read_unread, h3.read_unread, View.ld_unit_zero (S := S5000x128) hz,
    View.ld_unit_zero (S := S5000x1) hz, View.ld_unit_zero (S := S128x128) hz]

/-- Past the first point the body leaves, in the counts buffer holding `xo3`, the counts payload of the ids block over `xo3`. -/
theorem out_B_3 (c : Dev nD) (i : grid2.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond2_0 i)
    (x0 : Vec F S5000x128 .f32) (x1 : Vec F S5000x1 .i32) (xo2 : Vec F S128x128 .f32) (xo3 : Vec F S1x128 .f32) :
    out2_B_3 c i a1 h1 a2 h2 a3 h3 a4 h4 hc x0 x1 xo2 xo3 = k2_pay5 x1 xo3 := by
  unfold out2_B_3
  rw [View.read_writes_eq_canon _ _ _ (cover2_B_3 c i a1 h1 a2 h2 a3 h3 a4 h4 hc x0 x1 xo2 xo3)]
  unfold kernelRun2_B
  dsimp only
  sl_unfold_words
  rw [View.canon_unit_zero (S := S1x128) hz]
  simp only [View.readAt_eq_ld, h2.read_unread, h4.read_unread,
    View.ld_unit_zero (S := S5000x1) hz, View.ld_unit_zero (S := S1x128) hz]

/-- At the first point the body resets the sums buffer, reads the reset back and leaves the sums payload over it. -/
theorem out_A_2 (c : Dev nD) (i : grid2.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond2_0 i)
    (x0 : Vec F S5000x128 .f32) (x1 : Vec F S5000x1 .i32) :
    out2_A_2 c i a1 h1 a2 h2 a3 h3 a4 h4 hc x0 x1 = k2_pay4 x0 x1 k2_pay1 := by
  unfold out2_A_2
  rw [View.read_writes_eq_canon _ _ _ (cover2_A_2 c i a1 h1 a2 h2 a3 h3 a4 h4 hc x0 x1)]
  unfold kernelRun2_A
  dsimp only
  sl_unfold_words
  rw [View.canon_cons_unit_zero (S := S128x128) hz]
  simp only [View.readAt_eq_ld, h1.read_unread, h2.read_unread, View.ld_unit_zero (S := S5000x128) hz,
    View.ld_unit_zero (S := S5000x1) hz, View.readCov_unit_zero (S := S128x128) _ hz]

/-- At the first point the body resets the counts buffer, reads the reset back and leaves the counts payload over it. -/
theorem out_A_3 (c : Dev nD) (i : grid2.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond2_0 i)
    (x0 : Vec F S5000x128 .f32) (x1 : Vec F S5000x1 .i32) :
    out2_A_3 c i a1 h1 a2 h2 a3 h3 a4 h4 hc x0 x1 = k2_pay5 x1 k2_pay2 := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S1x128) hz]
  simp only [View.readAt_eq_ld, h2.read_unread,
    View.ld_unit_zero (S := S5000x1) hz, View.readCov_unit_zero (S := S1x128) _ hz]

end Pieces

variable (V : (c : Dev nD) → (b : Ref sig .tc) → Buf (Elt Ideal) ((c : Thread nD τ).loc b))

/-- The features block and the graph-ids block the pooling region reads at point `t`. -/
abbrev hblk (c : Dev nD) (t : Fin cfg2.N) : Vec Ideal S5000x128 .f32 := iblk2 (F := Ideal) V c 0 t
abbrev gblk (c : Dev nD) (t : Fin cfg2.N) : Vec Ideal S5000x1 .i32 := iblk2 (F := Ideal) V c 1 t

theorem lt_N {n : ℕ} (h : n < cfg2.N) (t : Fin (n + 1)) : t.val < cfg2.N := Nat.lt_of_lt_of_le t.isLt h

/-- The sums accumulated over the blocks of points `0 … n`. -/
def accS (c : Dev nD) (n : ℕ) (h : n < cfg2.N) : Vec Ideal S128x128 .f32 :=
  fun i => ∑ t : Fin (n + 1), blkSum (hblk V c ⟨t.val, lt_N h t⟩) (gblk V c ⟨t.val, lt_N h t⟩) i

/-- The counts accumulated over the blocks of points `0 … n`. -/
def accC (c : Dev nD) (n : ℕ) (h : n < cfg2.N) : Vec Ideal S1x128 .f32 :=
  fun i => ∑ t : Fin (n + 1), blkCnt (gblk V c ⟨t.val, lt_N h t⟩) i

theorem accS_zero (c : Dev nD) (h : 0 < cfg2.N) :
    accS V c 0 h = blkSum (hblk V c ⟨0, h⟩) (gblk V c ⟨0, h⟩) := by
  funext i
  unfold accS
  rw [Fin.sum_univ_castSucc, Fin.sum_univ_zero, zero_add]
  rfl

theorem accC_zero (c : Dev nD) (h : 0 < cfg2.N) : accC V c 0 h = blkCnt (gblk V c ⟨0, h⟩) := by
  funext i
  unfold accC
  rw [Fin.sum_univ_castSucc, Fin.sum_univ_zero, zero_add]
  rfl

theorem accS_succ (c : Dev nD) (n : ℕ) (h : n + 1 < cfg2.N) :
    accS V c (n + 1) h
      = fun i => accS V c n (Nat.lt_of_succ_lt h) i + blkSum (hblk V c ⟨n + 1, h⟩) (gblk V c ⟨n + 1, h⟩) i := by
  funext i
  unfold accS
  rw [Fin.sum_univ_castSucc]
  rfl

theorem accC_succ (c : Dev nD) (n : ℕ) (h : n + 1 < cfg2.N) :
    accC V c (n + 1) h = fun i => accC V c n (Nat.lt_of_succ_lt h) i + blkCnt (gblk V c ⟨n + 1, h⟩) i := by
  funext i
  unfold accC
  rw [Fin.sum_univ_castSucc]
  rfl

/-- The first point: both buffers are reset to zero and then take the first block's contribution. -/
theorem first_S (x0 : Vec Ideal S5000x128 .f32) (x1 : Vec Ideal S5000x1 .i32) :
    k2_pay4 (F := Ideal) x0 x1 (k2_pay1 (F := Ideal)) = blkSum x0 x1 := by
  funext i
  simp only [pay4_eq, pay1_eq, zero_add]

theorem first_C (x1 : Vec Ideal S5000x1 .i32) : k2_pay5 (F := Ideal) x1 (k2_pay2 (F := Ideal)) = blkCnt x1 := by
  funext i
  simp only [pay5_eq, pay2_eq, zero_add]

/-- A later point adds its block's contribution to what the point before left. -/
theorem step_B (c : Dev nD) (t : Fin cfg2.N) (hB : ¬t.val % 20 = 0) (S : Vec Ideal S128x128 .f32) (C : Vec Ideal S1x128 .f32)
    (hprev : outsAt2 (F := Ideal) V c (t.val - 1) (Nat.lt_of_le_of_lt (Nat.sub_le _ _) t.isLt) = (S, C)) :
    outsAt2 (F := Ideal) V c t.val t.isLt
      = (fun i => S i + blkSum (hblk V c t) (gblk V c t) i, fun i => C i + blkCnt (gblk V c t) i) := by
  rw [outsAt2_B V c t hB, hprev]
  dsimp only
  rw [out_B_2, out_B_3, pay4_eq, pay5_eq]

/-- What the two output buffers hold after point `n`: the contributions of the blocks of points `0 … n`, summed. -/
theorem outsAt_eq (c : Dev nD) : ∀ (n : ℕ) (h : n < cfg2.N), outsAt2 (F := Ideal) V c n h = (accS V c n h, accC V c n h)
  | 0, h => by
    refine (outsAt2_A V c ⟨0, h⟩ rfl).trans ?_
    rw [out_A_2, out_A_3, first_S, first_C, accS_zero, accC_zero]
  | n + 1, h => by
    have hB : ¬(⟨n + 1, h⟩ : Fin cfg2.N).val % 20 = 0 := by
      have := lt_of_lt_of_eq h (show cfg2.N = 20 from N_2)
      dsimp only
      omega
    refine (step_B V c ⟨n + 1, h⟩ hB (accS V c n (Nat.lt_of_succ_lt h)) (accC V c n (Nat.lt_of_succ_lt h))
      (outsAt_eq c n (Nat.lt_of_succ_lt h))).trans ?_
    rw [accS_succ, accC_succ]

/-- The index maps of the two input windows, decided over the grid: the block of point `t` is row block `t`,
    column block `0`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem row_lt (t : Fin cfg2.N) (k : Fin 5000) : 5000 * t.val + k.val < 100000 := by
  have := lt_of_lt_of_eq t.isLt (show cfg2.N = 20 from N_2)
  have := k.isLt
  omega

/-- Row `k` of the features block of point `t` is row `5000 t + k` of the features array. -/
theorem hblk_apply (c : Dev nD) (t : Fin cfg2.N) (k : Fin 5000) (f : Fin 128) :
    hblk V c t (ix2 k f) = V c main_v44 (ix2 (⟨5000 * t.val + k.val, row_lt t k⟩ : Fin 100000) f) := by
  obtain ⟨e0, e1, -, -⟩ := idx_facts t
  show ((cfg2.win 0).blk t).view.read (Elt Ideal) (V c (Pipeline.arrRef spec2 0)) (ix2 k f) = _
  rw [View.read_apply]
  show V c main_v44 _ = V c main_v44 _
  congr 1
  funext a
  apply Fin.ext
  match a with
  | ⟨0, _⟩ => show win2_0.index t 0 * 5000 + 1 * k.val = 5000 * t.val + k.val; rw [e0]; omega
  | ⟨1, _⟩ => show win2_0.index t 1 * 128 + 1 * f.val = f.val; rw [e1]; omega

/-- Row `k` of the graph-ids block of point `t` is row `5000 t + k` of the graph-ids column. -/
theorem gblk_apply (c : Dev nD) (t : Fin cfg2.N) (k : Fin 5000) :
    gblk V c t (ix2 k (0 : Fin 1)) = V c main_v45 (ix2 (⟨5000 * t.val + k.val, row_lt t k⟩ : Fin 100000) (0 : Fin 1)) := by
  obtain ⟨-, -, e0, e1⟩ := idx_facts t
  show ((cfg2.win 1).blk t).view.read (Elt Ideal) (V c (Pipeline.arrRef spec2 1)) (ix2 k (0 : Fin 1)) = _
  rw [View.read_apply]
  show V c main_v45 _ = V c main_v45 _
  congr 1
  funext a
  apply Fin.ext
  match a with
  | ⟨0, _⟩ => show win2_1.index t 0 * 5000 + 1 * k.val = 5000 * t.val + k.val; rw [e0]; omega
  | ⟨1, _⟩ => show win2_1.index t 1 * 1 + 1 * (0 : Fin 1).val = (0 : Fin 1).val; rw [e1]; rfl

theorem lt20 (t : Fin 20) : t.val < cfg2.N := lt_of_lt_of_eq t.isLt (show cfg2.N = 20 from N_2).symm

theorem h19 : 19 < cfg2.N := lt20 19

/-- After the last point the sums buffer holds the per-graph feature sums of the two arrays. -/
theorem accS_last (c : Dev nD) : accS V c 19 h19 = poolSum (V c main_v44) (V c main_v45) := by
  funext i
  exact sum_blkSum_eq_poolSum (V c main_v44) (V c main_v45) (fun t => hblk V c ⟨t.val, lt20 t⟩) (fun t => gblk V c ⟨t.val, lt20 t⟩)
    (fun t k f => hblk_apply V c ⟨t.val, lt20 t⟩ k f) (fun t k => gblk_apply V c ⟨t.val, lt20 t⟩ k) i

/-- After the last point the counts buffer holds the per-graph node counts. -/
theorem accC_last (c : Dev nD) : accC V c 19 h19 = poolCnt (V c main_v45) := by
  funext i
  exact sum_blkCnt_eq_poolCnt (V c main_v45) (fun t => gblk V c ⟨t.val, lt20 t⟩)
    (fun t k => gblk_apply V c ⟨t.val, lt20 t⟩ k) i

/-- The one point whose outputs are written back: the last. -/
abbrev lastPt : Fin cfg2.N := ⟨19, h19⟩

theorem flush_last {t : Fin cfg2.N} (h : t.val % 20 = 19) : t = lastPt := by
  have := lt_of_lt_of_eq t.isLt (show cfg2.N = 20 from N_2)
  exact Fin.ext (by show t.val = 19; omega)

/-- Both outputs' one block sits at offset zero of its array. -/
theorem off_S : (fun a => win2_2.index lastPt a * main_v46_0.ty.shape.size a) = fun _ => 0 :=
  funext fun a => by fin_cases a <;> decide
theorem off_C : (fun a => win2_3.index lastPt a * main_v46_1.ty.shape.size a) = fun _ => 0 :=
  funext fun a => by fin_cases a <;> decide

/-- What the last point writes back to the sums array: the per-graph feature sums, its one block being the array. -/
theorem flushed_S (c : Dev nD) (t : Fin cfg2.N) (hf : (cfg2.win 2).flush t = true) :
    (dat2 (F := Ideal) V c).flushed 2 t
      = ((cfg2.win 2).blk t).view.read (Elt Ideal) (poolSum (V c main_v44) (V c main_v45)) := by
  obtain rfl : t = lastPt := flush_last ((flush2_2 t).mp hf)
  show (cfg2.win 2).cut (grid2.coords lastPt) ((dat2 (F := Ideal) V c).after 2 lastPt) = _
  rw [after2_2, outsAt_eq]
  dsimp only
  rw [accS_last]
  exact (Memref.read_access_unit_zero (Elt Ideal) main_v46_0 off_S (fun a => by rw [congrFun off_S a]; simp)
    (poolSum (V c main_v44) (V c main_v45))).symm

/-- What the last point writes back to the counts row: the per-graph node counts. -/
theorem flushed_C (c : Dev nD) (t : Fin cfg2.N) (hf : (cfg2.win 3).flush t = true) :
    (dat2 (F := Ideal) V c).flushed 3 t
      = ((cfg2.win 3).blk t).view.read (Elt Ideal) (poolCnt (V c main_v45)) := by
  obtain rfl : t = lastPt := flush_last ((flush2_3 t).mp hf)
  show (cfg2.win 3).cut (grid2.coords lastPt) ((dat2 (F := Ideal) V c).after 3 lastPt) = _
  rw [after2_3, outsAt_eq]
  dsimp only
  rw [accC_last]
  exact (Memref.read_access_unit_zero (Elt Ideal) main_v46_1 off_C (fun a => by rw [congrFun off_C a]; simp)
    (poolCnt (V c main_v45))).symm

/-- After the pooling region the sums array holds the per-graph feature sums of the region-entry arrays. -/
theorem pool_sums_final (c : Dev nD) :
    (dat2 (F := Ideal) V c).arrAt 2 cfg2.N = poolSum (V c main_v44) (V c main_v45) :=
  (dat2 (F := Ideal) V c).arrAt_eq_of_cover 2 (poolSum (V c main_v44) (V c main_v45)) (flushed_S V c) fun i =>
    ⟨lastPt, (flush2_2 lastPt).mpr rfl, by
      show i ∈ ((View.whole main_v46_0).slice (win2_2.rect lastPt)).set
      rw [View.set_slice_whole, Rect.mem_set_unit]
      intro a
      have h0 : (i 0 : Nat) < 128 := (i 0).isLt
      have h1 : (i 1 : Nat) < 128 := (i 1).isLt
      match a with
      | ⟨0, _⟩ =>
        show win2_2.index lastPt 0 * win2_2.size 0 ≤ (i 0 : Nat)
          ∧ (i 0 : Nat) < win2_2.index lastPt 0 * win2_2.size 0 + win2_2.xsize (grid2.coords lastPt) 0
        rw [show win2_2.index lastPt 0 * win2_2.size 0 = 0 from by decide +kernel,
          show win2_2.xsize (grid2.coords lastPt) 0 = 128 from by decide +kernel]
        omega
      | ⟨1, _⟩ =>
        show win2_2.index lastPt 1 * win2_2.size 1 ≤ (i 1 : Nat)
          ∧ (i 1 : Nat) < win2_2.index lastPt 1 * win2_2.size 1 + win2_2.xsize (grid2.coords lastPt) 1
        rw [show win2_2.index lastPt 1 * win2_2.size 1 = 0 from by decide +kernel,
          show win2_2.xsize (grid2.coords lastPt) 1 = 128 from by decide +kernel]
        omega⟩

/-- After the pooling region the counts row holds the per-graph node counts. -/
theorem pool_cnts_final (c : Dev nD) :
    (dat2 (F := Ideal) V c).arrAt 3 cfg2.N = poolCnt (V c main_v45) :=
  (dat2 (F := Ideal) V c).arrAt_eq_of_cover 3 (poolCnt (V c main_v45)) (flushed_C V c) fun i =>
    ⟨lastPt, (flush2_3 lastPt).mpr rfl, by
      show i ∈ ((View.whole main_v46_1).slice (win2_3.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win2_3.index lastPt 0 * win2_3.size 0 ≤ (i 0 : Nat)
          ∧ (i 0 : Nat) < win2_3.index lastPt 0 * win2_3.size 0 + win2_3.xsize (grid2.coords lastPt) 0
        rw [show win2_3.index lastPt 0 * win2_3.size 0 = 0 from by decide +kernel,
          show win2_3.xsize (grid2.coords lastPt) 0 = 1 from by decide +kernel]
        omega
      | ⟨1, _⟩ =>
        show win2_3.index lastPt 1 * win2_3.size 1 ≤ (i 1 : Nat)
          ∧ (i 1 : Nat) < win2_3.index lastPt 1 * win2_3.size 1 + win2_3.xsize (grid2.coords lastPt) 1
        rw [show win2_3.index lastPt 1 * win2_3.size 1 = 0 from by decide +kernel,
          show win2_3.xsize (grid2.coords lastPt) 1 = 128 from by decide +kernel]
        omega⟩

end Cert.KernelIdeal.PoolValue

end
-- ==== Proof.RefPool.lean ====
import proofs.«416134_j13417477832960_1_alg».proof.Proof.Gen.ReferenceIdeal.Read
import proofs.«416134_j13417477832960_1_alg».proof.Proof.Spec
import Idealize.ShloMosaic.Lib.Pipeline.Value
import Idealize.ShloMosaic.Lib.ValueLayout
import Idealize.ShloMosaic.PureOps.Ideal.Laws
import Idealize.ShloMosaic.Lib.IdealHost
import Idealize.ShloMosaic.Lib.ValueIdxRank1

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.PoolBridge

open Cert.ReferenceIdeal Cert.ReferenceIdeal.Read Cert.PoolSpec

/-! ## Words: a signed value below 128 names its word -/

/-- A 32-bit word whose signed value is a natural number below 128 is that number's word. -/
theorem word_eq_of_toInt (w : BitVec 32) (g : ℕ) (hg : g < 128) (h : w.toInt = (g : Int)) : w = BitVec.ofNat 32 g := by
  apply BitVec.eq_of_toNat_eq
  rw [BitVec.toNat_ofNat]
  have hw := w.isLt
  rw [BitVec.toInt_eq_toNat_cond] at h
  split at h <;> omega

/-- The signed value of the word of a natural number below 128 is that number. -/
theorem toInt_ofNat_small (g : ℕ) (hg : g < 128) : (BitVec.ofNat 32 g).toInt = (g : Int) := by
  rw [BitVec.toInt_eq_toNat_cond, BitVec.toNat_ofNat]
  have : g % 2 ^ 32 = g := Nat.mod_eq_of_lt (by omega)
  rw [this, if_pos (by omega)]

/-- A vector reshaped to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The feature scatter's dimension numbers: update `(n, f')` lands at `(id n, f')` -/

theorem start0 (idx : IVec S100000x1 32) (n : Fin 100000) (f' : Fin 128) :
    scatter_S128x128_S100000x1_S100000x128_1_0_0_1.start (ix2 n f') idx 0 = (idx (ix2 n (0 : Fin 1))).toInt := by
  unfold ScatterDims.start
  rw [dif_pos (show (0 : Fin S128x128.rank) ∈ scatter_S128x128_S100000x1_S100000x128_1_0_0_1.scatterDimsToOperandDims from List.mem_singleton.2 rfl)]
  refine congrArg (fun k => (idx k).toInt) ?_
  funext b
  match b with
  | ⟨0, _⟩ => rfl
  | ⟨1, _⟩ => rfl

theorem start1 (idx : IVec S100000x1 32) (n : Fin 100000) (f' : Fin 128) :
    scatter_S128x128_S100000x1_S100000x128_1_0_0_1.start (ix2 n f') idx 1 = 0 := by
  unfold ScatterDims.start
  rw [dif_neg (show ¬ (1 : Fin S128x128.rank) ∈ scatter_S128x128_S100000x1_S100000x128_1_0_0_1.scatterDimsToOperandDims from by
    show ¬ (1 : Fin 2) ∈ [(0 : Fin 2)]; decide)]

theorem window0 (n : Fin 100000) (f' : Fin 128) :
    scatter_S128x128_S100000x1_S100000x128_1_0_0_1.window (ix2 n f') 0 = 0 := by
  unfold ScatterDims.window
  rw [dif_neg (show ¬ (0 : Fin S128x128.rank) ∈ scatter_S128x128_S100000x1_S100000x128_1_0_0_1.sKept from by
    show ¬ (0 : Fin 2) ∈ [(1 : Fin 2)]; decide)]

theorem window1 (n : Fin 100000) (f' : Fin 128) :
    scatter_S128x128_S100000x1_S100000x128_1_0_0_1.window (ix2 n f') 1 = f'.val := by
  unfold ScatterDims.window
  rw [dif_pos (show (1 : Fin S128x128.rank) ∈ scatter_S128x128_S100000x1_S100000x128_1_0_0_1.sKept from by
    show (1 : Fin 2) ∈ [(1 : Fin 2)]; exact List.mem_singleton.2 rfl)]
  rfl

/-- Update `(n, f')` of the feature scatter lands at `(g, f)` exactly when node `n`'s id word is `g` and `f' = f`. -/
theorem resultIdx2_iff (idx : IVec S100000x1 32) (n : Fin 100000) (f' g f : Fin 128) :
    scatter_S128x128_S100000x1_S100000x128_1_0_0_1.resultIdx? (ix2 n f') idx = some (ix2 g f)
      ↔ idx (ix2 n (0 : Fin 1)) = BitVec.ofNat 32 g.val ∧ f' = f := by
  unfold ScatterDims.resultIdx?
  constructor
  · intro H
    split at H
    · rename_i h
      have H' := Option.some.inj H
      have e0 : (scatter_S128x128_S100000x1_S100000x128_1_0_0_1.start (ix2 n f') idx 0
          + scatter_S128x128_S100000x1_S100000x128_1_0_0_1.window (ix2 n f') 0).toNat = g.val :=
        congrArg (fun k => (k 0).val) H'
      have e1 : (scatter_S128x128_S100000x1_S100000x128_1_0_0_1.start (ix2 n f') idx 1
          + scatter_S128x128_S100000x1_S100000x128_1_0_0_1.window (ix2 n f') 1).toNat = f.val :=
        congrArg (fun k => (k 1).val) H'
      have h0 := (h 0).1
      rw [start0, window0] at e0 h0
      rw [start1, window1] at e1
      have hg := g.isLt
      refine ⟨word_eq_of_toInt _ g.val hg (by omega), Fin.ext (by omega)⟩
    · exact absurd H (by simp)
  · rintro ⟨hw, rfl⟩
    have hg := g.isLt
    have hf := f'.isLt
    have h : ∀ a, 0 ≤ scatter_S128x128_S100000x1_S100000x128_1_0_0_1.start (ix2 n f') idx a
          + scatter_S128x128_S100000x1_S100000x128_1_0_0_1.window (ix2 n f') a
        ∧ scatter_S128x128_S100000x1_S100000x128_1_0_0_1.start (ix2 n f') idx a
          + scatter_S128x128_S100000x1_S100000x128_1_0_0_1.window (ix2 n f') a < S128x128.size a := by
      intro a
      match a with
      | ⟨0, _⟩ =>
        show 0 ≤ scatter_S128x128_S100000x1_S100000x128_1_0_0_1.start (ix2 n f') idx 0
            + scatter_S128x128_S100000x1_S100000x128_1_0_0_1.window (ix2 n f') 0
          ∧ scatter_S128x128_S100000x1_S100000x128_1_0_0_1.start (ix2 n f') idx 0
            + scatter_S128x128_S100000x1_S100000x128_1_0_0_1.window (ix2 n f') 0 < ((128 : ℕ) : ℤ)
        rw [start0, window0, hw, toInt_ofNat_small _ hg]; omega
      | ⟨1, _⟩ =>
        show 0 ≤ scatter_S128x128_S100000x1_S100000x128_1_0_0_1.start (ix2 n f') idx 1
            + scatter_S128x128_S100000x1_S100000x128_1_0_0_1.window (ix2 n f') 1
          ∧ scatter_S128x128_S100000x1_S100000x128_1_0_0_1.start (ix2 n f') idx 1
            + scatter_S128x128_S100000x1_S100000x128_1_0_0_1.window (ix2 n f') 1 < ((128 : ℕ) : ℤ)
        rw [start1, window1]; omega
    rw [dif_pos h]
    refine congrArg some (funext fun a => Fin.ext ?_)
    match a with
    | ⟨0, _⟩ =>
      show (scatter_S128x128_S100000x1_S100000x128_1_0_0_1.start (ix2 n f') idx 0
          + scatter_S128x128_S100000x1_S100000x128_1_0_0_1.window (ix2 n f') 0).toNat = g.val
      rw [start0, window0, hw, toInt_ofNat_small _ hg]; omega
    | ⟨1, _⟩ =>
      show (scatter_S128x128_S100000x1_S100000x128_1_0_0_1.start (ix2 n f') idx 1
          + scatter_S128x128_S100000x1_S100000x128_1_0_0_1.window (ix2 n f') 1).toNat = f'.val
      rw [start1, window1]; omega

/-- The id column the reference scatters by reads, at `(n, 0)`, node `n`'s id word. -/
theorem idcol_apply (x2 : (⟨S100000, .i32⟩ : BufTy).Contents (Elt Ideal)) (n : Fin 100000) :
    val_main_v56 (F := Ideal) x2 (ix2 n (0 : Fin 1)) = x2 (ix1 n) := by
  rw [val_main_v56_apply]
  refine congrArg x2 (funext fun a => ?_)
  match a with
  | ⟨0, _⟩ => rfl

/-- The reference's segment sum of the node features by graph id (a scatter-add into zeros) is the per-graph feature sum. -/
theorem ref_pool_sums (x0 x1 : (⟨S1600000, .i32⟩ : BufTy).Contents (Elt Ideal)) (x2 : (⟨S100000, .i32⟩ : BufTy).Contents (Elt Ideal))
    (x3 : (⟨S1x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (hg : S100000.ShapeCasts S100000x1) :
    val_main_v57 (F := Ideal) x0 x1 x2 x3 x4 x5 x6
      = poolSum (val_main_v54 (F := Ideal) x0 x1 x3 x4 x5 x6) (shapeCast S100000x1 x2 hg) := by
  funext i
  obtain ⟨g, f, rfl⟩ : ∃ g f, i = ix2 g f := ⟨i 0, i 1, eq_ix2 i⟩
  unfold val_main_v57
  generalize val_main_v54 (F := Ideal) x0 x1 x3 x4 x5 x6 = h
  unfold Host.scatterAdd
  rw [Ideal.hostScatterAdd_def]
  unfold Ideal.hostScatterAdd
  rw [val_main_v55_apply, val_main_cst_11_apply]
  show Ideal.ofBits .f32 0x00000000#32 + _ = ∑ n : Fin 100000, member (shapeCast S100000x1 x2 hg) n g * h (ix2 n f)
  rw [Ideal.ofBits_zero_f32, zero_add, Finset.sum_filter, sum_idx2]
  refine Finset.sum_congr rfl fun n _ => ?_
  simp only [resultIdx2_iff]
  unfold member
  rw [idcol_apply, shapeCast_a_a1_apply]
  by_cases hm : x2 (ix1 n) = BitVec.ofNat 32 g.val
  · rw [if_pos hm, one_mul]
    simp only [hm, true_and]
    rw [Finset.sum_ite_eq' Finset.univ f, if_pos (Finset.mem_univ f)]
  · rw [if_neg hm, zero_mul]
    simp only [hm, false_and, if_false, Finset.sum_const_zero]

/-! ## The count scatter's dimension numbers: update `n` lands at `id n` -/

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

theorem cstart0 (idx : IVec S100000x1 32) (n : Fin 100000) :
    scatter_S128_S100000x1_S100000_n_0_0_1.start (ix1 n) idx 0 = (idx (ix2 n (0 : Fin 1))).toInt := by
  unfold ScatterDims.start
  rw [dif_pos (show (0 : Fin S128.rank) ∈ scatter_S128_S100000x1_S100000_n_0_0_1.scatterDimsToOperandDims from List.mem_singleton.2 rfl)]
  refine congrArg (fun k => (idx k).toInt) ?_
  funext b
  match b with
  | ⟨0, _⟩ => rfl
  | ⟨1, _⟩ => rfl

theorem cwindow0 (n : Fin 100000) :
    scatter_S128_S100000x1_S100000_n_0_0_1.window (ix1 n) 0 = 0 := by
  unfold ScatterDims.window
  rw [dif_neg (show ¬ (0 : Fin S128.rank) ∈ scatter_S128_S100000x1_S100000_n_0_0_1.sKept from by
    show ¬ (0 : Fin 1) ∈ ([] : List (Fin 1)); exact List.not_mem_nil)]

/-- Update `n` of the count scatter lands at `g` exactly when node `n`'s id word is `g`. -/
theorem resultIdx1_iff (idx : IVec S100000x1 32) (n : Fin 100000) (g : Fin 128) :
    scatter_S128_S100000x1_S100000_n_0_0_1.resultIdx? (ix1 n) idx = some (ix1 g)
      ↔ idx (ix2 n (0 : Fin 1)) = BitVec.ofNat 32 g.val := by
  unfold ScatterDims.resultIdx?
  have hg := g.isLt
  constructor
  · intro H
    split at H
    · rename_i h
      have H' := Option.some.inj H
      have e0 : (scatter_S128_S100000x1_S100000_n_0_0_1.start (ix1 n) idx 0
          + scatter_S128_S100000x1_S100000_n_0_0_1.window (ix1 n) 0).toNat = g.val :=
        congrArg (fun k => (k 0).val) H'
      have h0 := (h 0).1
      rw [cstart0, cwindow0] at e0 h0
      exact word_eq_of_toInt _ g.val hg (by omega)
    · exact absurd H (by simp)
  · intro hw
    have h : ∀ a, 0 ≤ scatter_S128_S100000x1_S100000_n_0_0_1.start (ix1 n) idx a
          + scatter_S128_S100000x1_S100000_n_0_0_1.window (ix1 n) a
        ∧ scatter_S128_S100000x1_S100000_n_0_0_1.start (ix1 n) idx a
          + scatter_S128_S100000x1_S100000_n_0_0_1.window (ix1 n) a < S128.size a := by
      intro a
      match a with
      | ⟨0, _⟩ =>
        show 0 ≤ scatter_S128_S100000x1_S100000_n_0_0_1.start (ix1 n) idx 0
            + scatter_S128_S100000x1_S100000_n_0_0_1.window (ix1 n) 0
          ∧ scatter_S128_S100000x1_S100000_n_0_0_1.start (ix1 n) idx 0
            + scatter_S128_S100000x1_S100000_n_0_0_1.window (ix1 n) 0 < ((128 : ℕ) : ℤ)
        rw [cstart0, cwindow0, hw, toInt_ofNat_small _ hg]; omega
    rw [dif_pos h]
    refine congrArg some (funext fun a => Fin.ext ?_)
    match a with
    | ⟨0, _⟩ =>
      show (scatter_S128_S100000x1_S100000_n_0_0_1.start (ix1 n) idx 0
          + scatter_S128_S100000x1_S100000_n_0_0_1.window (ix1 n) 0).toNat = g.val
      rw [cstart0, cwindow0, hw, toInt_ofNat_small _ hg]; omega

/-- The id column the count scatter goes by reads, at `(n, 0)`, node `n`'s id word. -/
theorem idcol'_apply (x2 : (⟨S100000, .i32⟩ : BufTy).Contents (Elt Ideal)) (n : Fin 100000) :
    val_main_v60 (F := Ideal) x2 (ix2 n (0 : Fin 1)) = x2 (ix1 n) := by
  rw [val_main_v60_apply]
  refine congrArg x2 (funext fun a => ?_)
  match a with
  | ⟨0, _⟩ => rfl

/-- The reference's segment sum of ones by graph id is the per-graph node count, read as a vector. -/
theorem ref_pool_cnts (x2 : (⟨S100000, .i32⟩ : BufTy).Contents (Elt Ideal)) (hg : S100000.ShapeCasts S100000x1)
    (hc : S1x128.ShapeCasts S128) :
    val_main_v61 (F := Ideal) x2 = shapeCast S128 (poolCnt (shapeCast S100000x1 x2 hg)) hc := by
  funext i
  obtain ⟨g, rfl⟩ : ∃ g, i = ix1 g := ⟨i 0, eq_ix1 i⟩
  rw [shapeCast_1a_a_apply]
  unfold val_main_v61 Host.scatterAdd
  rw [Ideal.hostScatterAdd_def]
  unfold Ideal.hostScatterAdd
  rw [val_main_v59_apply, val_main_cst_13_apply]
  show Ideal.ofBits .f32 0x00000000#32 + _ = ∑ n : Fin 100000, member (shapeCast S100000x1 x2 hg) n g
  rw [Ideal.ofBits_zero_f32, zero_add, Finset.sum_filter, sum_idx1]
  refine Finset.sum_congr rfl fun n _ => ?_
  rw [val_main_v58_apply, val_main_cst_12_apply]
  show (if _ then Ideal.ofBits .f32 0x3F800000#32 else 0) = _
  rw [Ideal.ofBits_one_f32]
  simp only [resultIdx1_iff]
  unfold member
  rw [idcol'_apply, shapeCast_a_a1_apply]

end Cert.ReferenceIdeal.PoolBridge

end
-- ==== Proof.HostChainC.lean ====
/-
  What the kernel program's result array holds, as the reference's last stage: the pooling region leaves the per-graph
  sums and counts (the reference's two segment sums), and the host tail divides by the clipped counts, multiplies by the
  classifier weights and adds the bias as the reference does; a vector reshaped to a column is the vector broadcast along
  the column's axis 0.
-/
import proofs.«416134_j13417477832960_1_alg».proof.Proof.HostChainB
import proofs.«416134_j13417477832960_1_alg».proof.Proof.PoolValue
import proofs.«416134_j13417477832960_1_alg».proof.Proof.RefPool
import proofs.«416134_j13417477832960_1_alg».proof.Proof.RefConv
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-! ## The pooling region and the classifier tail -/

theorem at10_sums (c : Dev nD) :
    W10 m ρ c (Proc.devRef .tc main_v46_0)
      = Cert.ReferenceIdeal.Read.val_main_v57 (F := Ideal) (a0 m c) (a1 m c) (a2 m c) (a3 m c) (a4 m c) (a5 m c) (a6 m c) := by
  refine (W10_arr m ρ c 2).trans ?_
  refine (Cert.KernelIdeal.PoolValue.pool_sums_final (V9 m ρ) c).trans ?_
  show Cert.PoolSpec.poolSum (W9 m ρ c (Proc.devRef .tc main_v44)) (W9 m ρ c (Proc.devRef .tc main_v45)) = _
  rw [at9_v44, at9_v45]
  exact (Cert.ReferenceIdeal.PoolBridge.ref_pool_sums _ _ _ _ _ _ _ _).symm

theorem at10_cnts (c : Dev nD) :
    W10 m ρ c (Proc.devRef .tc main_v46_1)
      = Cert.PoolSpec.poolCnt (shapeCast S100000x1 (a2 m c) shapeCasts_S100000_S100000x1) := by
  refine (W10_arr m ρ c 3).trans ?_
  refine (Cert.KernelIdeal.PoolValue.pool_cnts_final (V9 m ρ) c).trans ?_
  show Cert.PoolSpec.poolCnt (W9 m ρ c (Proc.devRef .tc main_v45)) = _
  rw [at9_v45]
theorem at10_arg7 (c : Dev nD) : W10 m ρ c (Proc.devRef .tc main_arg7) = a7 m c :=
  (W10_of_ne m ρ c main_arg7 (by decide)).trans (at9_arg7 m ρ c)
theorem at10_arg8 (c : Dev nD) : W10 m ρ c (Proc.devRef .tc main_arg8) = a8 m c :=
  (W10_of_ne m ρ c main_arg8 (by decide)).trans (at9_arg8 m ρ c)

/-- The counts row read as a vector is the reference's segment sum of ones. -/
theorem at11_v47 (c : Dev nD) : W11 m ρ c (Proc.devRef .tc main_v47) = Cert.ReferenceIdeal.Read.val_main_v61 (F := Ideal) (a2 m c) := by
  show StableHlo.after hostOps3 (W10 m ρ c) (Proc.devRef .tc main_v47) = _
  after_results_simp
  rw [at10_cnts]
  exact (Cert.ReferenceIdeal.PoolBridge.ref_pool_cnts (a2 m c) shapeCasts_S100000_S100000x1 shapeCasts_S1x128_S128).symm

theorem at11_cst_11 (c : Dev nD) : W11 m ρ c (Proc.devRef .tc main_cst_11) = Cert.ReferenceIdeal.Read.val_main_cst_14 (F := Ideal) := by
  show StableHlo.after hostOps3 (W10 m ρ c) (Proc.devRef .tc main_cst_11) = _
  after_results_simp <;> rfl

theorem at11_sums (c : Dev nD) : W11 m ρ c (Proc.devRef .tc main_v46_0)
      = Cert.ReferenceIdeal.Read.val_main_v57 (F := Ideal) (a0 m c) (a1 m c) (a2 m c) (a3 m c) (a4 m c) (a5 m c) (a6 m c) := by
  show StableHlo.after hostOps3 (W10 m ρ c) (Proc.devRef .tc main_v46_0) = _
  after_results_simp
  exact at10_sums m ρ c

theorem at11_arg7 (c : Dev nD) : W11 m ρ c (Proc.devRef .tc main_arg7) = a7 m c := by
  show StableHlo.after hostOps3 (W10 m ρ c) (Proc.devRef .tc main_arg7) = _
  after_results_simp
  exact at10_arg7 m ρ c

theorem at11_arg8 (c : Dev nD) : W11 m ρ c (Proc.devRef .tc main_arg8) = a8 m c := by
  show StableHlo.after hostOps3 (W10 m ρ c) (Proc.devRef .tc main_arg8) = _
  after_results_simp
  exact at10_arg8 m ρ c

set_option maxHeartbeats 4000000 in
theorem at12_v48 (c : Dev nD) : W12 m ρ c (Proc.devRef .tc main_v48) = Cert.ReferenceIdeal.Read.val_main_v62 (F := Ideal) (a2 m c) := by
  have h0 := at11_cst_11 m ρ c
  have h1 := at11_v47 m ρ c
  show StableHlo.after hostOps3_1 (W11 m ρ c) (Proc.devRef .tc main_v48) = _
  generalize W11 m ρ c = V at h0 h1 ⊢
  after_results_simp
  refine Eq.trans (b := maximumf (F := Ideal) (s := S128) (φ := .f32) (broadcastInDim S128 ![] bcast_S_S128 (id (V (Proc.devRef .tc main_cst_11)))) (V (Proc.devRef .tc main_v47))) rfl ?_
  rw [h0, h1]
  rfl

set_option maxHeartbeats 4000000 in
theorem at12_sums (c : Dev nD) : W12 m ρ c (Proc.devRef .tc main_v46_0) = Cert.ReferenceIdeal.Read.val_main_v57 (F := Ideal) (a0 m c) (a1 m c) (a2 m c) (a3 m c) (a4 m c) (a5 m c) (a6 m c) := by
  have h0 := at11_sums m ρ c
  show StableHlo.after hostOps3_1 (W11 m ρ c) (Proc.devRef .tc main_v46_0) = _
  generalize W11 m ρ c = V at h0 ⊢
  after_results_simp
  exact h0

set_option maxHeartbeats 4000000 in
theorem at12_arg7 (c : Dev nD) : W12 m ρ c (Proc.devRef .tc main_arg7) = a7 m c := by
  have h0 := at11_arg7 m ρ c
  show StableHlo.after hostOps3_1 (W11 m ρ c) (Proc.devRef .tc main_arg7) = _
  generalize W11 m ρ c = V at h0 ⊢
  after_results_simp
  exact h0

set_option maxHeartbeats 4000000 in
theorem at12_arg8 (c : Dev nD) : W12 m ρ c (Proc.devRef .tc main_arg8) = a8 m c := by
  have h0 := at11_arg8 m ρ c
  show StableHlo.after hostOps3_1 (W11 m ρ c) (Proc.devRef .tc main_arg8) = _
  generalize W11 m ρ c = V at h0 ⊢
  after_results_simp
  exact h0

set_option maxHeartbeats 4000000 in
/-- The result array: the pooled means times the classifier weights plus its bias, the reference's last stage. -/
theorem at13_v55 (c : Dev nD) :
    W13 m ρ c (Proc.devRef .tc main_v55)
      = Cert.ReferenceIdeal.Read.val_main_v69 (F := Ideal) (a0 m c) (a1 m c) (a2 m c) (a3 m c) (a4 m c) (a5 m c) (a6 m c) (a7 m c) (a8 m c) := by
  have h0 := at12_v48 m ρ c
  have h1 := at12_sums m ρ c
  have h2 := at12_arg7 m ρ c
  have h3 := at12_arg8 m ρ c
  show StableHlo.after hostOps3_2 (W12 m ρ c) (Proc.devRef .tc main_v55) = _
  generalize W12 m ρ c = V at h0 h1 h2 h3 ⊢
  after_results_simp
  rw [h0, h1, h2, h3]
  have e : (fun i => shapeCast main_v49.ty.shape (Cert.ReferenceIdeal.Read.val_main_v62 (F := Ideal) (a2 m c)) shapeCasts_S128_S128x1 i)
      = broadcastInDim Cert.ReferenceIdeal.S128x1 ![0] Cert.ReferenceIdeal.Gen.bcast_S128_S128x1_0 (Cert.ReferenceIdeal.Read.val_main_v62 (F := Ideal) (a2 m c)) :=
    Cert.ReferenceIdeal.ConvBridge.reshape_col_eq_bcast _ _
  rw [e]
  rfl

end Cert.KernelIdeal.Chain

end
-- ==== Proof.lean ====
/-
  The certificate: a two-layer graph convolution with mean pooling, written as three tiled kernels among host
  operations, against its jnp reference, over the extended reals.

  Both programs compute the degrees and their inverse-square-root norms, and the edge aggregation (a gather along the
  source nodes then a segment sum along the destination nodes), with the same host operations. Each convolution's dense
  finish is `relu((agg · W) * norm + b)`: the kernel computes it block by block of 5000 nodes with a matrix product into
  a zero accumulator, the reference with one `dot_general` over all nodes; at the ideal values both are the same sum over
  the contraction index, entry by entry. The mean pooling's per-graph sums and counts: the kernel multiplies, block by
  block, the one-hot matrix "node's graph id is g" with the node features and accumulates over the 20 blocks, starting
  from zero; the reference scatter-adds every node's row into its graph's row, dropping ids outside the 128 graphs,
  which the one-hot matrix also leaves out. Both are the sum over all nodes of the indicator times the feature: a finite
  sum regrouped, which holds on the extended reals since addition there is commutative and associative. The division by
  the clipped counts and the classifier product are the same host operations on both sides.
  No law used needs finiteness, so the precondition is never opened.
-/
import proofs.«416134_j13417477832960_1_alg».proof.Defs
import proofs.«416134_j13417477832960_1_alg».proof.Proof.Gen.Kernel
import proofs.«416134_j13417477832960_1_alg».proof.Proof.Gen.Kernel.Skeleton
import proofs.«416134_j13417477832960_1_alg».proof.Proof.Gen.Kernel.Launch
import proofs.«416134_j13417477832960_1_alg».proof.Proof.Gen.Kernel.Points
import proofs.«416134_j13417477832960_1_alg».proof.Proof.Gen.Kernel.Frame
import proofs.«416134_j13417477832960_1_alg».proof.Proof.Gen.KernelIdeal
import proofs.«416134_j13417477832960_1_alg».proof.Proof.Gen.KernelIdeal.Skeleton
import proofs.«416134_j13417477832960_1_alg».proof.Proof.Gen.KernelIdeal.Launch
import proofs.«416134_j13417477832960_1_alg».proof.Proof.Gen.KernelIdeal.Points
import proofs.«416134_j13417477832960_1_alg».proof.Proof.Gen.KernelIdeal.Frame
import proofs.«416134_j13417477832960_1_alg».proof.Proof.Gen.ReferenceIdeal
import proofs.«416134_j13417477832960_1_alg».proof.Proof.Gen.ReferenceIdeal.Run
import proofs.«416134_j13417477832960_1_alg».proof.Proof.Gen.ReferenceIdeal.Read
import proofs.«416134_j13417477832960_1_alg».proof.Proof.Gen.Pre_finite_inputs
import proofs.«416134_j13417477832960_1_alg».proof.Proof.RunNamed
import proofs.«416134_j13417477832960_1_alg».proof.Proof.HostChainC
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same result: the kernel's result array
    holds the reference's last stage of the kernel's arguments, and the reference's run ends at that stage of its own. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W13 m ρ c (Proc.devRef .tc Cert.KernelIdeal.main_v55), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v69_eq, e0, e1, e2, e3, e4, e5, e6, e7, e8]
  exact (Cert.KernelIdeal.Chain.at13_v55 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
